-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x300000 : Shape := ⟨2, ![2, 300000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg10 : FVec F S128x128 .f32) (main_arg11 : FVec F S128x128 .f32) (main_arg12 : FVec F S128 .f32) (main_arg13 : FVec F S128x128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x128 .f32) (main_arg1 : FVec F S100000x128 .f32) (main_arg2 : IVec S2x300000 32) (main_arg3 : IVec S2x300000 32) (main_arg4 : IVec S2x300000 32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_v13 main_v16
-- ==== Kernel.lean ====
abbrev S100000x128 : Shape := ⟨2, ![100000, 128]⟩
abbrev S2x300000 : Shape := ⟨2, ![2, 300000]⟩
abbrev S128x128 : Shape := ⟨2, ![128, 128]⟩
abbrev S128 : Shape := ⟨1, ![128]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x128 : Shape := ⟨2, ![300000, 128]⟩
abbrev S100000 : Shape := ⟨1, ![100000]⟩
abbrev S100000x1 : Shape := ⟨2, ![100000, 1]⟩
abbrev S10000x128 : Shape := ⟨2, ![10000, 128]⟩
abbrev S1x128 : Shape := ⟨2, ![1, 128]⟩

abbrev nBuf : Space → Nat
  | .hbm => 120
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x300000, .i32⟩
  | .hbm, ⟨3, _⟩ => ⟨S2x300000, .i32⟩
  | .hbm, ⟨4, _⟩ => ⟨S2x300000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S1x300000, .i32⟩
  | .hbm, ⟨15, _⟩ => ⟨S300000, .i32⟩
  | .hbm, ⟨16, _⟩ => ⟨S1x300000, .i32⟩
  | .hbm, ⟨17, _⟩ => ⟨S300000, .i32⟩
  | .hbm, ⟨18, _⟩ => ⟨S_, .i32⟩
  | .hbm, ⟨19, _⟩ => ⟨S300000, .i32⟩
  | .hbm, ⟨20, _⟩ => ⟨S300000, .i1⟩
  | .hbm, ⟨21, _⟩ => ⟨S_, .i32⟩
  | .hbm, ⟨22, _⟩ => ⟨S300000, .i32⟩
  | .hbm, ⟨23, _⟩ => ⟨S300000, .i32⟩
  | .hbm, ⟨24, _⟩ => ⟨S300000, .i32⟩
  | .hbm, ⟨25, _⟩ => ⟨S300000x1, .i32⟩
  | .hbm, ⟨26, _⟩ => ⟨S300000x128, .f32⟩
  | .hbm, ⟨27, _⟩ => ⟨S_, .f32⟩
  | .hbm, ⟨28, _⟩ => ⟨S100000x128, .f32⟩
  | .hbm, ⟨29, _⟩ => ⟨S300000x1, .i32⟩
  | .hbm, ⟨30, _⟩ => ⟨S100000x128, .f32⟩
  | .hbm, ⟨31, _⟩ => ⟨S_, .f32⟩
  | .hbm, ⟨32, _⟩ => ⟨S300000, .f32⟩
  | .hbm, ⟨33, _⟩ => ⟨S_, .f32⟩
  | .hbm, ⟨34, _⟩ => ⟨S100000, .f32⟩
  | .hbm, ⟨35, _⟩ => ⟨S300000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S1x300000, .i32⟩
  | .hbm, ⟨44, _⟩ => ⟨S300000, .i32⟩
  | .hbm, ⟨45, _⟩ => ⟨S1x300000, .i32⟩
  | .hbm, ⟨46, _⟩ => ⟨S300000, .i32⟩
  | .hbm, ⟨47, _⟩ => ⟨S_, .i32⟩
  | .hbm, ⟨48, _⟩ => ⟨S300000, .i32⟩
  | .hbm, ⟨49, _⟩ => ⟨S300000, .i1⟩
  | .hbm, ⟨50, _⟩ => ⟨S_, .i32⟩
  | .hbm, ⟨51, _⟩ => ⟨S300000, .i32⟩
  | .hbm, ⟨52, _⟩ => ⟨S300000, .i32⟩
  | .hbm, ⟨53, _⟩ => ⟨S300000, .i32⟩
  | .hbm, ⟨54, _⟩ => ⟨S300000x1, .i32⟩
  | .hbm, ⟨55, _⟩ => ⟨S300000x128, .f32⟩
  | .hbm, ⟨56, _⟩ => ⟨S_, .f32⟩
  | .hbm, ⟨57, _⟩ => ⟨S100000x128, .f32⟩
  | .hbm, ⟨58, _⟩ => ⟨S300000x1, .i32⟩
  | .hbm, ⟨59, _⟩ => ⟨S100000x128, .f32⟩
  | .hbm, ⟨60, _⟩ => ⟨S_, .f32⟩
  | .hbm, ⟨61, _⟩ => ⟨S300000, .f32⟩
  | .hbm, ⟨62, _⟩ => ⟨S_, .f32⟩
  | .hbm, ⟨63, _⟩ => ⟨S100000, .f32⟩
  | .hbm, ⟨64, _⟩ => ⟨S300000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S1x300000, .i32⟩
  | .hbm, ⟨73, _⟩ => ⟨S300000, .i32⟩
  | .hbm, ⟨74, _⟩ => ⟨S1x300000, .i32⟩
  | .hbm, ⟨75, _⟩ => ⟨S300000, .i32⟩
  | .hbm, ⟨76, _⟩ => ⟨S_, .i32⟩
  | .hbm, ⟨77, _⟩ => ⟨S300000, .i32⟩
  | .hbm, ⟨78, _⟩ => ⟨S300000, .i1⟩
  | .hbm, ⟨79, _⟩ => ⟨S_, .i32⟩
  | .hbm, ⟨80, _⟩ => ⟨S300000, .i32⟩
  | .hbm, ⟨81, _⟩ => ⟨S300000, .i32⟩
  | .hbm, ⟨82, _⟩ => ⟨S300000, .i32⟩
  | .hbm, ⟨83, _⟩ => ⟨S300000x1, .i32⟩
  | .hbm, ⟨84, _⟩ => ⟨S300000x128, .f32⟩
  | .hbm, ⟨85, _⟩ => ⟨S_, .f32⟩
  | .hbm, ⟨86, _⟩ => ⟨S100000x128, .f32⟩
  | .hbm, ⟨87, _⟩ => ⟨S300000x1, .i32⟩
  | .hbm, ⟨88, _⟩ => ⟨S100000x128, .f32⟩
  | .hbm, ⟨89, _⟩ => ⟨S_, .f32⟩
  | .hbm, ⟨90, _⟩ => ⟨S300000, .f32⟩
  | .hbm, ⟨91, _⟩ => ⟨S_, .f32⟩
  | .hbm, ⟨92, _⟩ => ⟨S100000, .f32⟩
  | .hbm, ⟨93, _⟩ => ⟨S300000x1, .i32⟩
  | .hbm, ⟨94, _⟩ => ⟨S100000, .f32⟩
  | .hbm, ⟨95, _⟩ => ⟨S_, .f32⟩
  | .hbm, ⟨96, _⟩ => ⟨S100000, .f32⟩
  | .hbm, ⟨97, _⟩ => ⟨S100000, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S100000x128, .bf16⟩
  | .hbm, ⟨102, _⟩ => ⟨S100000x128, .bf16⟩
  | .hbm, ⟨103, _⟩ => ⟨S100000x128, .bf16⟩
  | .hbm, ⟨104, _⟩ => ⟨S100000x128, .bf16⟩
  | .hbm, ⟨105, _⟩ => ⟨S100000x128, .bf16⟩
  | .hbm, ⟨106, _⟩ => ⟨S128x128, .f32⟩
  | .hbm, ⟨107, _⟩ => ⟨S128x128, .bf16⟩
  | .hbm, ⟨108, _⟩ => ⟨S128x128, .f32⟩
  | .hbm, ⟨109, _⟩ => ⟨S128x128, .bf16⟩
  | .hbm, ⟨110, _⟩ => ⟨S128x128, .f32⟩
  | .hbm, ⟨111, _⟩ => ⟨S128x128, .bf16⟩
  | .hbm, ⟨112, _⟩ => ⟨S128x128, .f32⟩
  | .hbm, ⟨113, _⟩ => ⟨S128x128, .bf16⟩
  | .hbm, ⟨114, _⟩ => ⟨S128x128, .f32⟩
  | .hbm, ⟨115, _⟩ => ⟨S128x128, .bf16⟩
  | .hbm, ⟨116, _⟩ => ⟨S128x128, .f32⟩
  | .hbm, ⟨117, _⟩ => ⟨S128x128, .bf16⟩
  | .hbm, ⟨118, _⟩ => ⟨S100000x128, .f32⟩
  | .hbm, ⟨119, _⟩ => ⟨S100000x128, .f32⟩
  | .local _ .vmem, ⟨0, _⟩ => ⟨S10000x128, .bf16⟩
  | .local _ .vmem, ⟨1, _⟩ => ⟨S10000x128, .bf16⟩
  | .local _ .vmem, ⟨2, _⟩ => ⟨S10000x128, .bf16⟩
  | .local _ .vmem, ⟨3, _⟩ => ⟨S10000x128, .bf16⟩
  | .local _ .vmem, ⟨4, _⟩ => ⟨S10000x128, .bf16⟩
  | .local _ .vmem, ⟨5, _⟩ => ⟨S10000x128, .bf16⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S128x128, .bf16⟩
  | .local _ .vmem, ⟨10, _⟩ => ⟨S128, .f32⟩
  | .local _ .vmem, ⟨11, _⟩ => ⟨S128x128, .bf16⟩
  | .local _ .vmem, ⟨12, _⟩ => ⟨S10000x128, .f32⟩
  | .local _ .vmem, ⟨13, _⟩ => ⟨S10000x128, .f32⟩
  | .local _ .vmem, ⟨14, _⟩ => ⟨S10000x128, .bf16⟩
  | .local _ .vmem, ⟨15, _⟩ => ⟨S10000x128, .bf16⟩
  | .local _ .vmem, ⟨16, _⟩ => ⟨S10000x128, .bf16⟩
  | .local _ .vmem, ⟨17, _⟩ => ⟨S10000x128, .bf16⟩
  | .local _ .vmem, ⟨18, _⟩ => ⟨S128x128, .bf16⟩
  | .local _ .vmem, ⟨19, _⟩ => ⟨S128, .f32⟩
  | .local _ .vmem, ⟨20, _⟩ => ⟨S128x128, .bf16⟩
  | .local _ .vmem, ⟨21, _⟩ => ⟨S10000x128, .f32⟩
  | .local _ .vmem, ⟨22, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  gather_S100000x128_S300000x1_S300000x128_1_0_n_n_0_1_1128_wf : GatherDims.WF S100000x128 S300000x1 S300000x128 [1] [0] [] [0] [] 1 ![1, 128]
  scatter_S100000x128_S300000x1_S300000x128_1_0_0_1_wf : ScatterDims.WF S100000x128 S300000x1 S300000x128 [1] [0] [0] 1
  scatter_S100000_S300000x1_S300000_n_0_0_1_wf : ScatterDims.WF S100000 S300000x1 S300000 [] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .bf16 = 32 ∨ (Rect.block (s := S100000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x128.size a ≤ S100000x128.size a
  hwx0_9 : ∀ i : grid0.Coords, EltTy.bits .f32 = 32 ∨ (Rect.block (s := S100000x128) S10000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .bf16 = 32 ∨ (Rect.block (s := S100000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v69) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v70) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v72) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v75) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v77) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v79) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v81) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v86) S10000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v71) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v83) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v85) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v87) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x300000 : Shape := ⟨2, ![2, 300000]⟩
abbrev S128x128 : Shape := ⟨2, ![128, 128]⟩
abbrev S128 : Shape := ⟨1, ![128]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x128 : Shape := ⟨2, ![300000, 128]⟩
abbrev S100000x1 : Shape := ⟨2, ![100000, 1]⟩
abbrev S1x128 : Shape := ⟨2, ![1, 128]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x300000, .i32⟩
  | .hbm, ⟨3, _⟩ => ⟨S2x300000, .i32⟩
  | .hbm, ⟨4, _⟩ => ⟨S2x300000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S1x300000, .i32⟩
  | .hbm, ⟨15, _⟩ => ⟨S300000, .i32⟩
  | .hbm, ⟨16, _⟩ => ⟨S1x300000, .i32⟩
  | .hbm, ⟨17, _⟩ => ⟨S300000, .i32⟩
  | .hbm, ⟨18, _⟩ => ⟨S_, .i32⟩
  | .hbm, ⟨19, _⟩ => ⟨S300000, .i32⟩
  | .hbm, ⟨20, _⟩ => ⟨S300000, .i1⟩
  | .hbm, ⟨21, _⟩ => ⟨S_, .i32⟩
  | .hbm, ⟨22, _⟩ => ⟨S300000, .i32⟩
  | .hbm, ⟨23, _⟩ => ⟨S300000, .i32⟩
  | .hbm, ⟨24, _⟩ => ⟨S300000, .i32⟩
  | .hbm, ⟨25, _⟩ => ⟨S300000x1, .i32⟩
  | .hbm, ⟨26, _⟩ => ⟨S300000x128, .f32⟩
  | .hbm, ⟨27, _⟩ => ⟨S_, .f32⟩
  | .hbm, ⟨28, _⟩ => ⟨S100000x128, .f32⟩
  | .hbm, ⟨29, _⟩ => ⟨S300000x1, .i32⟩
  | .hbm, ⟨30, _⟩ => ⟨S100000x128, .f32⟩
  | .hbm, ⟨31, _⟩ => ⟨S_, .f32⟩
  | .hbm, ⟨32, _⟩ => ⟨S300000x1, .f32⟩
  | .hbm, ⟨33, _⟩ => ⟨S_, .f32⟩
  | .hbm, ⟨34, _⟩ => ⟨S100000x1, .f32⟩
  | .hbm, ⟨35, _⟩ => ⟨S300000x1, .i32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S128x128, .f32⟩
  | .hbm, ⟨48, _⟩ => ⟨S100000x128, .f32⟩
  | .hbm, ⟨49, _⟩ => ⟨S100000x128, .f32⟩
  | .hbm, ⟨50, _⟩ => ⟨S1x300000, .i32⟩
  | .hbm, ⟨51, _⟩ => ⟨S300000, .i32⟩
  | .hbm, ⟨52, _⟩ => ⟨S1x300000, .i32⟩
  | .hbm, ⟨53, _⟩ => ⟨S300000, .i32⟩
  | .hbm, ⟨54, _⟩ => ⟨S_, .i32⟩
  | .hbm, ⟨55, _⟩ => ⟨S300000, .i32⟩
  | .hbm, ⟨56, _⟩ => ⟨S300000, .i1⟩
  | .hbm, ⟨57, _⟩ => ⟨S_, .i32⟩
  | .hbm, ⟨58, _⟩ => ⟨S300000, .i32⟩
  | .hbm, ⟨59, _⟩ => ⟨S300000, .i32⟩
  | .hbm, ⟨60, _⟩ => ⟨S300000, .i32⟩
  | .hbm, ⟨61, _⟩ => ⟨S300000x1, .i32⟩
  | .hbm, ⟨62, _⟩ => ⟨S300000x128, .f32⟩
  | .hbm, ⟨63, _⟩ => ⟨S_, .f32⟩
  | .hbm, ⟨64, _⟩ => ⟨S100000x128, .f32⟩
  | .hbm, ⟨65, _⟩ => ⟨S300000x1, .i32⟩
  | .hbm, ⟨66, _⟩ => ⟨S100000x128, .f32⟩
  | .hbm, ⟨67, _⟩ => ⟨S_, .f32⟩
  | .hbm, ⟨68, _⟩ => ⟨S300000x1, .f32⟩
  | .hbm, ⟨69, _⟩ => ⟨S_, .f32⟩
  | .hbm, ⟨70, _⟩ => ⟨S100000x1, .f32⟩
  | .hbm, ⟨71, _⟩ => ⟨S300000x1, .i32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S128x128, .f32⟩
  | .hbm, ⟨84, _⟩ => ⟨S100000x128, .f32⟩
  | .hbm, ⟨85, _⟩ => ⟨S100000x128, .f32⟩
  | .hbm, ⟨86, _⟩ => ⟨S1x300000, .i32⟩
  | .hbm, ⟨87, _⟩ => ⟨S300000, .i32⟩
  | .hbm, ⟨88, _⟩ => ⟨S1x300000, .i32⟩
  | .hbm, ⟨89, _⟩ => ⟨S300000, .i32⟩
  | .hbm, ⟨90, _⟩ => ⟨S_, .i32⟩
  | .hbm, ⟨91, _⟩ => ⟨S300000, .i32⟩
  | .hbm, ⟨92, _⟩ => ⟨S300000, .i1⟩
  | .hbm, ⟨93, _⟩ => ⟨S_, .i32⟩
  | .hbm, ⟨94, _⟩ => ⟨S300000, .i32⟩
  | .hbm, ⟨95, _⟩ => ⟨S300000, .i32⟩
  | .hbm, ⟨96, _⟩ => ⟨S300000, .i32⟩
  | .hbm, ⟨97, _⟩ => ⟨S300000x1, .i32⟩
  | .hbm, ⟨98, _⟩ => ⟨S300000x128, .f32⟩
  | .hbm, ⟨99, _⟩ => ⟨S_, .f32⟩
  | .hbm, ⟨100, _⟩ => ⟨S100000x128, .f32⟩
  | .hbm, ⟨101, _⟩ => ⟨S300000x1, .i32⟩
  | .hbm, ⟨102, _⟩ => ⟨S100000x128, .f32⟩
  | .hbm, ⟨103, _⟩ => ⟨S_, .f32⟩
  | .hbm, ⟨104, _⟩ => ⟨S300000x1, .f32⟩
  | .hbm, ⟨105, _⟩ => ⟨S_, .f32⟩
  | .hbm, ⟨106, _⟩ => ⟨S100000x1, .f32⟩
  | .hbm, ⟨107, _⟩ => ⟨S300000x1, .i32⟩
  | .hbm, ⟨108, _⟩ => ⟨S100000x1, .f32⟩
  | .hbm, ⟨109, _⟩ => ⟨S_, .f32⟩
  | .hbm, ⟨110, _⟩ => ⟨S100000x1, .f32⟩
  | .hbm, ⟨111, _⟩ => ⟨S100000x1, .f32⟩
  | .hbm, ⟨112, _⟩ => ⟨S100000x128, .f32⟩
  | .hbm, ⟨113, _⟩ => ⟨S100000x128, .f32⟩
  | .hbm, ⟨114, _⟩ => ⟨S128x128, .f32⟩
  | .hbm, ⟨115, _⟩ => ⟨S100000x128, .f32⟩
  | .hbm, ⟨116, _⟩ => ⟨S1x128, .f32⟩
  | .hbm, ⟨117, _⟩ => ⟨S100000x128, .f32⟩
  | .hbm, ⟨118, _⟩ => ⟨S100000x128, .f32⟩
  | .hbm, ⟨119, _⟩ => ⟨S128x128, .f32⟩
  | .hbm, ⟨120, _⟩ => ⟨S100000x128, .f32⟩
  | .hbm, ⟨121, _⟩ => ⟨S100000x128, .f32⟩
  | .hbm, ⟨122, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S100000x128 : S_.BroadcastsInDim S100000x128 (![] : Fin 0 → Fin S100000x128.rank)
  bcast_S_S300000x1 : S_.BroadcastsInDim S300000x1 (![] : Fin 0 → Fin S300000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S300000x1_S300000x128_1_0_n_n_0_1_1128_wf : GatherDims.WF S100000x128 S300000x1 S300000x128 [1] [0] [] [0] [] 1 ![1, 128]
  scatter_S100000x128_S300000x1_S300000x128_1_0_0_1_wf : ScatterDims.WF S100000x128 S300000x1 S300000x128 [1] [0] [0] 1
  scatter_S100000x1_S300000x1_S300000x1_1_0_0_1_wf : ScatterDims.WF S100000x1 S300000x1 S300000x1 [1] [0] [0] 1
  dot_S100000x128_S128x128_S100000x128_1_0_0_1_n_n_wf : DotDims.WF S100000x128 S128x128 S100000x128 [1] [0] [0] [1] [] []

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000x1_S300000x1_S300000x1_1_0_0_1 : ScatterDims S100000x1 S300000x1 S300000x1 where
  updateWindowDims := [1]
  insertedWindowDims := [0]
  scatterDimsToOperandDims := [0]
  indexVectorDim := 1
  wf := scatter_S100000x1_S300000x1_S300000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelHost.lean ====
/-
  The arrays the two kernel regions are entered with, as functions of the program's arguments.

  Before the first region the program computes, for each edge type, the mean of the source features over the edges ending at
  each destination node: the gathered rows summed per destination (an accumulating scatter into zeros), divided by the number of
  such edges, at least one.  That number is the accumulating scatter of a ONE per edge into a vector of zeros, clamped below by
  one and broadcast along the features.  The sum per destination and the index arithmetic are the very operations the reference
  applies, so they are stated through the reference's generated stage functions; only the count is laid out differently (a
  vector here, a one-column matrix there).  Each region input is then a change of float format of a mean, of a feature array,
  or of a transposed weight matrix; the biases are passed as they are.
-/
import proofs.«172808_j74766790689426_1_alg».proof.Proof.Gen.KernelIdeal.Frame
import proofs.«172808_j74766790689426_1_alg».proof.Proof.Gen.ReferenceIdeal.Read
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-- The number of edges of the list `e` that end at each node, and one where none does: a one per edge accumulated by
    destination into zeros, then the maximum with one. -/
def degree (e : IVec S2x300000 32) : FVec F S100000 .f32 :=
  maximumf
    (Host.scatterAdd scatter_S100000_S300000x1_S300000_n_0_0_1
      (broadcastInDim S100000 ![] bcast_S_S100000 (constant S_ .f32 0x00000000#32))
      (Cert.ReferenceIdeal.Read.val_main_v16 (F := F) e)
      (broadcastInDim S300000 ![] bcast_S_S300000 (constant S_ .f32 0x3F800000#32)))
    (broadcastInDim S100000 ![] bcast_S_S100000 (constant S_ .f32 0x3F800000#32))

/-- The mean of the source features `x` over the edges of `e` ending at each node: the per-destination sum of the gathered
    rows divided by the degree, broadcast along the features. -/
def meanK (x : FVec F S100000x128 .f32) (e : IVec S2x300000 32) : FVec F S100000x128 .f32 :=
  Host.divf (Cert.ReferenceIdeal.Read.val_main_v13 (F := F) x e)
    (broadcastInDim S100000x128 ![0, 1] bcast_S100000x1_S100000x128_0_1
      (broadcastInDim S100000x1 ![0] bcast_S100000_S100000x1_0 (degree (F := F) e)))

/-- A weight matrix transposed (input feature × output feature), in the matrix unit's operand format. -/
def weightT (w : FVec F S128x128 .f32) : FVec F S128x128 .bf16 :=
  truncf .bf16 (transpose S128x128 [1, 0] w transposes_S128x128_S128x128_1_0) bitsLt_bf16_f32

variable (m : (ℓ : Loc nD τ sig) → Buf (Elt F) ℓ) (ρ : Dev nD → PrngReg)

/-! ## Region 0 is entered after all the host operations: its ten arrays -/

theorem V1_v69 (c : Dev nD) : V1 m ρ c main_v69 = (truncf .bf16 (meanK (F := F) (m ((c : Thread nD τ).loc main_arg0)) (m ((c : Thread nD τ).loc main_arg2))) bitsLt_bf16_f32 : FVec F S100000x128 .bf16) := by
  show StableHlo.after hostOps0 (W0 m ρ c) (Proc.devRef .tc main_v69) = _
  after_results_simp <;> rfl

theorem V1_v70 (c : Dev nD) : V1 m ρ c main_v70 = (truncf .bf16 (meanK (F := F) (m ((c : Thread nD τ).loc main_arg1)) (m ((c : Thread nD τ).loc main_arg4))) bitsLt_bf16_f32 : FVec F S100000x128 .bf16) := by
  show StableHlo.after hostOps0 (W0 m ρ c) (Proc.devRef .tc main_v70) = _
  after_results_simp <;> rfl

theorem V1_v71 (c : Dev nD) : V1 m ρ c main_v71 = (truncf .bf16 (meanK (F := F) (m ((c : Thread nD τ).loc main_arg0)) (m ((c : Thread nD τ).loc main_arg3))) bitsLt_bf16_f32 : FVec F S100000x128 .bf16) := by
  show StableHlo.after hostOps0 (W0 m ρ c) (Proc.devRef .tc main_v71) = _
  after_results_simp <;> rfl

theorem V1_v72 (c : Dev nD) : V1 m ρ c main_v72 = (truncf .bf16 (m ((c : Thread nD τ).loc main_arg0)) bitsLt_bf16_f32 : FVec F S100000x128 .bf16) := by
  show StableHlo.after hostOps0 (W0 m ρ c) (Proc.devRef .tc main_v72) = _
  after_results_simp <;> rfl

theorem V1_v73 (c : Dev nD) : V1 m ρ c main_v73 = (truncf .bf16 (m ((c : Thread nD τ).loc main_arg1)) bitsLt_bf16_f32 : FVec F S100000x128 .bf16) := by
  show StableHlo.after hostOps0 (W0 m ρ c) (Proc.devRef .tc main_v73) = _
  after_results_simp <;> rfl

theorem V1_v75 (c : Dev nD) : V1 m ρ c main_v75 = weightT (F := F) (m ((c : Thread nD τ).loc main_arg5)) := by
  show StableHlo.after hostOps0 (W0 m ρ c) (Proc.devRef .tc main_v75) = _
  after_results_simp <;> rfl

theorem V1_v77 (c : Dev nD) : V1 m ρ c main_v77 = weightT (F := F) (m ((c : Thread nD τ).loc main_arg7)) := by
  show StableHlo.after hostOps0 (W0 m ρ c) (Proc.devRef .tc main_v77) = _
  after_results_simp <;> rfl

theorem V1_v79 (c : Dev nD) : V1 m ρ c main_v79 = weightT (F := F) (m ((c : Thread nD τ).loc main_arg11)) := by
  show StableHlo.after hostOps0 (W0 m ρ c) (Proc.devRef .tc main_v79) = _
  after_results_simp <;> rfl

theorem V1_v81 (c : Dev nD) : V1 m ρ c main_v81 = weightT (F := F) (m ((c : Thread nD τ).loc main_arg13)) := by
  show StableHlo.after hostOps0 (W0 m ρ c) (Proc.devRef .tc main_v81) = _
  after_results_simp <;> rfl

theorem V1_v83 (c : Dev nD) : V1 m ρ c main_v83 = weightT (F := F) (m ((c : Thread nD τ).loc main_arg8)) := by
  show StableHlo.after hostOps0 (W0 m ρ c) (Proc.devRef .tc main_v83) = _
  after_results_simp <;> rfl

theorem V1_v85 (c : Dev nD) : V1 m ρ c main_v85 = weightT (F := F) (m ((c : Thread nD τ).loc main_arg10)) := by
  show StableHlo.after hostOps0 (W0 m ρ c) (Proc.devRef .tc main_v85) = _
  after_results_simp <;> rfl

theorem V1_arg6 (c : Dev nD) : V1 m ρ c main_arg6 = (m ((c : Thread nD τ).loc main_arg6)) := by
  show StableHlo.after hostOps0 (W0 m ρ c) (Proc.devRef .tc main_arg6) = _
  after_results_simp <;> rfl

theorem V1_arg12 (c : Dev nD) : V1 m ρ c main_arg12 = (m ((c : Thread nD τ).loc main_arg12)) := by
  show StableHlo.after hostOps0 (W0 m ρ c) (Proc.devRef .tc main_arg12) = _
  after_results_simp <;> rfl

theorem V1_arg9 (c : Dev nD) : V1 m ρ c main_arg9 = (m ((c : Thread nD τ).loc main_arg9)) := by
  show StableHlo.after hostOps0 (W0 m ρ c) (Proc.devRef .tc main_arg9) = _
  after_results_simp <;> rfl

/-! ## Region 1 is entered with what region 0 left: none of its inputs is an array of region 0 -/

theorem V2_v71 (c : Dev nD) : V2 m ρ c main_v71 = V1 m ρ c main_v71 :=
  W2_of_ne m ρ c main_v71 (by decide)

theorem V2_v73 (c : Dev nD) : V2 m ρ c main_v73 = V1 m ρ c main_v73 :=
  W2_of_ne m ρ c main_v73 (by decide)

theorem V2_v83 (c : Dev nD) : V2 m ρ c main_v83 = V1 m ρ c main_v83 :=
  W2_of_ne m ρ c main_v83 (by decide)

theorem V2_arg9 (c : Dev nD) : V2 m ρ c main_arg9 = V1 m ρ c main_arg9 :=
  W2_of_ne m ρ c main_arg9 (by decide)

theorem V2_v85 (c : Dev nD) : V2 m ρ c main_v85 = V1 m ρ c main_v85 :=
  W2_of_ne m ρ c main_v85 (by decide)

end Cert.KernelIdeal.Host

end
-- ==== Proof.KernelPayload.lean ====
/-
  What each kernel body stores, read at one element of the output block.

  A block holds 10000 node rows.  A matrix-unit product into a zero accumulator is, at row `r` and output feature `h`, the sum
  over the 128 input features of the left block at `(r, k)` times the weights at `(k, h)`; a bias vector reshaped to one row
  and broadcast down the rows is, at `(r, h)`, the bias at `h`.  The first body adds four products and two biases in the order
  ((((A + B) + b₁) + C) + D) + b₂, the second two products and one bias, (A + B) + b.
-/
import proofs.«172808_j74766790689426_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Payload

open Cert.KernelIdeal Cert.KernelIdeal.Gen
open Idealize.ShloMosaic Idealize.ShloMosaic.ValueIdx

/-! ## The product's operand indices: output `(r, h)` and contraction index `k` read `(r, k)` and `(k, h)` -/

theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Row `r` of a block against column `h` of a weight matrix. -/
def rowDot (x : S10000x128.Idx → EReal) (w : S128x128.Idx → EReal) (r : Fin 10000) (h : Fin 128) : EReal :=
  ∑ k : Fin 128, x (ix2 r k) * w (ix2 k h)

/-- The matrix unit's product into zeros, at `(r, h)`, is that sum. -/
theorem matmul_at (x : FVec Ideal S10000x128 .bf16) (w : FVec Ideal S128x128 .bf16) (r : Fin 10000) (h : Fin 128) :
    matmul dot_S10000x128_S128x128_S10000x128_1_0_0_1_n_n none x w (constant (F := Ideal) S10000x128 .f32 0x00000000#32) (ix2 r h) = rowDot x w r h := by
  unfold rowDot
  show FloatOps.matmul dot_S10000x128_S128x128_S10000x128_1_0_0_1_n_n none x w (constant (F := Ideal) S10000x128 .f32 0x00000000#32) (ix2 r h) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r h) ((ValueIdx.contrEquiv1 dot_S10000x128_S128x128_S10000x128_1_0_0_1_n_n 128 rfl rfl).symm k) = ix2 r k := funext fun a => Fin.ext (by
    match a with
    | ⟨0, _⟩ => exact lhs_0 _ _
    | ⟨1, _⟩ => exact (lhs_1 _ _).trans hk)
  have er : dot_S10000x128_S128x128_S10000x128_1_0_0_1_n_n.rhsIdx (ix2 r h) ((ValueIdx.contrEquiv1 dot_S10000x128_S128x128_S10000x128_1_0_0_1_n_n 128 rfl rfl).symm k) = ix2 k h := funext fun a => Fin.ext (by
    match a with
    | ⟨0, _⟩ => exact (rhs_0 _ _).trans hk
    | ⟨1, _⟩ => exact rhs_1 _ _)
  rw [el, er]

/-- A bias vector as one row, broadcast down the block's rows: at `(r, h)` the bias at `h`. -/
theorem bias_at (b : FVec Ideal S128 .f32) (r : Fin 10000) (h : Fin 128) :
    broadcastTo S10000x128 (shapeCast S1x128 b shapeCasts_S128_S1x128) broadcasts_S1x128_S10000x128 (ix2 r h) = b (ix1 h) := by
  rw [broadcastTo_apply _ broadcasts_S1x128_S10000x128 (ix2 r h) (ix2 (0 : Fin 1) h) (fun a => by
    match a with
    | ⟨0, _⟩ => rfl
    | ⟨1, _⟩ => rfl)]
  refine (shapeCast_addUnit_apply ![128] b shapeCasts_S128_S1x128 (ix2 (0 : Fin 1) h)).trans ?_
  refine congrArg b (funext fun a => ?_)
  match a with
  | ⟨0, _⟩ => rfl

/-- THE FIRST BODY's stored value at `(r, h)`: four row-by-column sums and two biases, added in the body's order. -/
theorem pay0_at (x0 x1 x2 : Vec Ideal S10000x128 .bf16) (w3 w5 : Vec Ideal S128x128 .bf16) (b4 : Vec Ideal S128 .f32)
    (w6 w8 : Vec Ideal S128x128 .bf16) (b7 : Vec Ideal S128 .f32) (r : Fin 10000) (h : Fin 128) :
    k0_pay1 (F := Ideal) x0 x1 x2 w3 w5 b4 w6 w8 b7 (ix2 r h)
      = ((((rowDot x0 w3 r h + rowDot x2 w5 r h) + b4 (ix1 h)) + rowDot x1 w6 r h) + rowDot x2 w8 r h) + b7 (ix1 h) := by
  unfold k0_pay1
  simp only [shapeCast_self]
  show ((((matmul dot_S10000x128_S128x128_S10000x128_1_0_0_1_n_n none x0 w3 (constant (F := Ideal) S10000x128 .f32 0x00000000#32) (ix2 r h)
        + matmul dot_S10000x128_S128x128_S10000x128_1_0_0_1_n_n none x2 w5 (constant (F := Ideal) S10000x128 .f32 0x00000000#32) (ix2 r h))
        + broadcastTo S10000x128 (shapeCast S1x128 b4 shapeCasts_S128_S1x128) broadcasts_S1x128_S10000x128 (ix2 r h))
        + matmul dot_S10000x128_S128x128_S10000x128_1_0_0_1_n_n none x1 w6 (constant (F := Ideal) S10000x128 .f32 0x00000000#32) (ix2 r h))
        + matmul dot_S10000x128_S128x128_S10000x128_1_0_0_1_n_n none x2 w8 (constant (F := Ideal) S10000x128 .f32 0x00000000#32) (ix2 r h))
        + broadcastTo S10000x128 (shapeCast S1x128 b7 shapeCasts_S128_S1x128) broadcasts_S1x128_S10000x128 (ix2 r h) = _
  rw [matmul_at, matmul_at, matmul_at, matmul_at, bias_at, bias_at]

/-- THE SECOND BODY's stored value at `(r, h)`: two row-by-column sums and one bias. -/
theorem pay1_at (x0 x1 : Vec Ideal S10000x128 .bf16) (w2 w4 : Vec Ideal S128x128 .bf16) (b3 : Vec Ideal S128 .f32)
    (r : Fin 10000) (h : Fin 128) :
    k1_pay1 (F := Ideal) x0 x1 w2 w4 b3 (ix2 r h) = (rowDot x0 w2 r h + rowDot x1 w4 r h) + b3 (ix1 h) := by
  unfold k1_pay1
  simp only [shapeCast_self]
  show (matmul dot_S10000x128_S128x128_S10000x128_1_0_0_1_n_n none x0 w2 (constant (F := Ideal) S10000x128 .f32 0x00000000#32) (ix2 r h)
        + matmul dot_S10000x128_S128x128_S10000x128_1_0_0_1_n_n none x1 w4 (constant (F := Ideal) S10000x128 .f32 0x00000000#32) (ix2 r h))
        + broadcastTo S10000x128 (shapeCast S1x128 b3 shapeCasts_S128_S1x128) broadcasts_S1x128_S10000x128 (ix2 r h) = _
  rw [matmul_at, matmul_at, bias_at]

end Cert.KernelIdeal.Payload

end
-- ==== Proof.Spec.lean ====
/-
  The mathematics both programs compute, stated once over literal shapes and explicit coordinates.

  For a destination node `n` and an output feature `h`, one SAGE term is
      (mean · Wlᵀ)[n, h] + b[h] + (x · Wrᵀ)[n, h],
  each product a sum over the 128 input features.  The service output adds the terms of the two
  edge types that end at a service node; the endpoint output is a single term.  The kernel adds
  the six summands of the service output in the order  ((((A + B) + b₁) + C) + D) + b₂  while the
  reference adds  ((A + b₁) + B) + ((C + b₂) + D);  addition of extended reals is commutative and
  associative, so the two orders agree with no finiteness assumption.
-/
import Idealize.ShloMosaic.PureOps.Ideal
import Idealize.ShloMosaic.Lib.ValueIdx

noncomputable section

namespace Cert.Sage

open Idealize.ShloMosaic Idealize.ShloMosaic.ValueIdx

/-- Node features: 100000 nodes, 128 features. -/
abbrev SN : Shape := ⟨2, ![100000, 128]⟩
/-- A weight matrix already transposed: input feature × output feature. -/
abbrev SW : Shape := ⟨2, ![128, 128]⟩
/-- A bias vector over the output features. -/
abbrev SB : Shape := ⟨1, ![128]⟩

/-- `(M · W)[n, h] = ∑ₖ M[n, k] · W[k, h]`: row `n` of the node features against column `h` of the
    transposed weights. -/
def rowsTimes (M : SN.Idx → EReal) (W : SW.Idx → EReal) (n : Fin 100000) (h : Fin 128) : EReal :=
  ∑ k : Fin 128, M (ix2 n k) * W (ix2 k h)

/-- One SAGE term in the reference's order: `(mean · Wlᵀ + b) + x · Wrᵀ`. -/
def term (M X : SN.Idx → EReal) (Wl Wr : SW.Idx → EReal) (b : SB.Idx → EReal) (n : Fin 100000) (h : Fin 128) : EReal :=
  (rowsTimes M Wl n h + b (ix1 h)) + rowsTimes X Wr n h

/-- One SAGE term in the kernel's order: `(mean · Wlᵀ + x · Wrᵀ) + b`. -/
def termK (M X : SN.Idx → EReal) (Wl Wr : SW.Idx → EReal) (b : SB.Idx → EReal) (n : Fin 100000) (h : Fin 128) : EReal :=
  (rowsTimes M Wl n h + rowsTimes X Wr n h) + b (ix1 h)

/-- The service output in the kernel's order of additions: the first term, then the second term's three summands
    added one at a time. -/
def serviceK (M₁ M₂ X : SN.Idx → EReal) (Wl₁ Wr₁ Wl₂ Wr₂ : SW.Idx → EReal) (b₁ b₂ : SB.Idx → EReal)
    (n : Fin 100000) (h : Fin 128) : EReal :=
  ((termK M₁ X Wl₁ Wr₁ b₁ n h + rowsTimes M₂ Wl₂ n h) + rowsTimes X Wr₂ n h) + b₂ (ix1 h)

/-- The bias may be added before or after the second product. -/
theorem termK_eq_term (M X : SN.Idx → EReal) (Wl Wr : SW.Idx → EReal) (b : SB.Idx → EReal) (n : Fin 100000) (h : Fin 128) :
    termK M X Wl Wr b n h = term M X Wl Wr b n h :=
  add_right_comm _ _ _

/-- The kernel's running sum of six summands is the sum of the two edge types' terms. -/
theorem serviceK_eq (M₁ M₂ X : SN.Idx → EReal) (Wl₁ Wr₁ Wl₂ Wr₂ : SW.Idx → EReal) (b₁ b₂ : SB.Idx → EReal)
    (n : Fin 100000) (h : Fin 128) :
    serviceK M₁ M₂ X Wl₁ Wr₁ Wl₂ Wr₂ b₁ b₂ n h = term M₁ X Wl₁ Wr₁ b₁ n h + term M₂ X Wl₂ Wr₂ b₂ n h := by
  unfold serviceK
  rw [termK_eq_term]
  generalize term M₁ X Wl₁ Wr₁ b₁ n h = T
  unfold term
  generalize rowsTimes M₂ Wl₂ n h = C
  generalize rowsTimes X Wr₂ n h = D
  generalize b₂ (ix1 h) = e
  rw [add_assoc T C D, add_assoc T (C + D) e, add_right_comm C D e]

end Cert.Sage

end
-- ==== Proof.KernelValue.lean ====
/-
  From the blocks each grid point writes back to the two result arrays.

  Each region runs over ten grid points; point `t` stages rows `10000 t … 10000 t + 9999` of every node-feature array, the
  whole of every weight matrix and bias vector, and writes back rows `10000 t …` of the result.  Reading the stored value at
  `(r, h)` through these blocks gives the whole arrays' row-by-column sums at node `10000 t + r`, so what point `t` writes
  back is block `t` of ONE function of the arrays the region was entered with; the ten blocks tile the result, which therefore
  ends holding that function.
-/
import proofs.«172808_j74766790689426_1_alg».proof.Proof.Gen.KernelIdeal.Frame
import proofs.«172808_j74766790689426_1_alg».proof.Proof.KernelPayload
import proofs.«172808_j74766790689426_1_alg».proof.Proof.Spec
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen
open Idealize.ShloMosaic.ValueIdx

theorem hz2 : (![0, 0] : Fin 2 → Nat) = fun _ => 0 := funext fun a => by fin_cases a <;> rfl
theorem hz1 : (![0] : Fin 1 → Nat) = fun _ => 0 := funext fun a => by fin_cases a <;> rfl

/-- The node that row `r` of block `t` is. -/
def node (t : Nat) (r : Fin 10000) (ht : t < 10) : Fin 100000 := ⟨t * 10000 + r.val, by have := r.isLt; omega⟩

section AtEntry
-- the contents a region is entered with: each lemma holds for any, the run instantiates them per region
variable (V : (c : Dev nD) → (b : Ref sig .tc) → Buf (Elt Ideal) ((c : Thread nD τ).loc b))

/-! ## Region 0: the service output -/

/-- Window 0 of region 0 at point `t` holds rows `10000 t … 10000 t + 9999` of its array. -/
theorem rows0_0 (c : Dev nD) (t : Fin cfg0.N) (r : Fin 10000) (k : Fin 128) :
    (iblk0 V c 0 t : Vec Ideal S10000x128 .bf16) (ix2 r k)
      = (V c main_v69 : S100000x128.Idx → EReal) (ix2 (node t.val r (Nat.lt_of_lt_of_eq t.isLt (show cfg0.N = 10 from N_0))) k) := by
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  unfold iblk0
  rw [View.read_apply]
  show V c main_v69 _ = V c main_v69 _
  congr 1
  funext a
  apply Fin.ext
  match a with
  | ⟨0, _⟩ => show win0_0.index t (0 : Fin 2) * 10000 + 1 * r.val = t.val * 10000 + r.val; rw [hi.1]; omega
  | ⟨1, _⟩ => show win0_0.index t (1 : Fin 2) * 128 + 1 * k.val = k.val; rw [hi.2]; omega

/-- Window 1 of region 0 at point `t` holds rows `10000 t … 10000 t + 9999` of its array. -/
theorem rows0_1 (c : Dev nD) (t : Fin cfg0.N) (r : Fin 10000) (k : Fin 128) :
    (iblk0 V c 1 t : Vec Ideal S10000x128 .bf16) (ix2 r k)
      = (V c main_v70 : S100000x128.Idx → EReal) (ix2 (node t.val r (Nat.lt_of_lt_of_eq t.isLt (show cfg0.N = 10 from N_0))) k) := by
  have hi : win0_1.index t (0 : Fin 2) = t.val ∧ win0_1.index t (1 : Fin 2) = 0 :=
    (by decide +kernel : ∀ t : Fin grid0.N, win0_1.index t (0 : Fin 2) = t.val ∧ win0_1.index t (1 : Fin 2) = 0) t
  unfold iblk0
  rw [View.read_apply]
  show V c main_v70 _ = V c main_v70 _
  congr 1
  funext a
  apply Fin.ext
  match a with
  | ⟨0, _⟩ => show win0_1.index t (0 : Fin 2) * 10000 + 1 * r.val = t.val * 10000 + r.val; rw [hi.1]; omega
  | ⟨1, _⟩ => show win0_1.index t (1 : Fin 2) * 128 + 1 * k.val = k.val; rw [hi.2]; omega

/-- Window 2 of region 0 at point `t` holds rows `10000 t … 10000 t + 9999` of its array. -/
theorem rows0_2 (c : Dev nD) (t : Fin cfg0.N) (r : Fin 10000) (k : Fin 128) :
    (iblk0 V c 2 t : Vec Ideal S10000x128 .bf16) (ix2 r k)
      = (V c main_v72 : S100000x128.Idx → EReal) (ix2 (node t.val r (Nat.lt_of_lt_of_eq t.isLt (show cfg0.N = 10 from N_0))) k) := by
  have hi : win0_2.index t (0 : Fin 2) = t.val ∧ win0_2.index t (1 : Fin 2) = 0 :=
    (by decide +kernel : ∀ t : Fin grid0.N, win0_2.index t (0 : Fin 2) = t.val ∧ win0_2.index t (1 : Fin 2) = 0) t
  unfold iblk0
  rw [View.read_apply]
  show V c main_v72 _ = V c main_v72 _
  congr 1
  funext a
  apply Fin.ext
  match a with
  | ⟨0, _⟩ => show win0_2.index t (0 : Fin 2) * 10000 + 1 * r.val = t.val * 10000 + r.val; rw [hi.1]; omega
  | ⟨1, _⟩ => show win0_2.index t (1 : Fin 2) * 128 + 1 * k.val = k.val; rw [hi.2]; omega

/-- Window 3 of region 0 holds the whole weight matrix at every point. -/
theorem weights0_3 (c : Dev nD) (t : Fin cfg0.N) (k : Fin 128) (h : Fin 128) :
    (iblk0 V c 3 t : Vec Ideal S128x128 .bf16) (ix2 k h) = (V c main_v75 : S128x128.Idx → EReal) (ix2 k h) := by
  have hi : win0_3.index t (0 : Fin 2) = 0 ∧ win0_3.index t (1 : Fin 2) = 0 :=
    (by decide +kernel : ∀ t : Fin grid0.N, win0_3.index t (0 : Fin 2) = 0 ∧ win0_3.index t (1 : Fin 2) = 0) t
  unfold iblk0
  rw [View.read_apply]
  show V c main_v75 _ = V c main_v75 _
  congr 1
  funext a
  apply Fin.ext
  match a with
  | ⟨0, _⟩ => show win0_3.index t (0 : Fin 2) * 128 + 1 * k.val = k.val; rw [hi.1]; omega
  | ⟨1, _⟩ => show win0_3.index t (1 : Fin 2) * 128 + 1 * h.val = h.val; rw [hi.2]; omega

/-- Window 5 of region 0 holds the whole weight matrix at every point. -/
theorem weights0_5 (c : Dev nD) (t : Fin cfg0.N) (k : Fin 128) (h : Fin 128) :
    (iblk0 V c 5 t : Vec Ideal S128x128 .bf16) (ix2 k h) = (V c main_v77 : S128x128.Idx → EReal) (ix2 k h) := by
  have hi : win0_5.index t (0 : Fin 2) = 0 ∧ win0_5.index t (1 : Fin 2) = 0 :=
    (by decide +kernel : ∀ t : Fin grid0.N, win0_5.index t (0 : Fin 2) = 0 ∧ win0_5.index t (1 : Fin 2) = 0) t
  unfold iblk0
  rw [View.read_apply]
  show V c main_v77 _ = V c main_v77 _
  congr 1
  funext a
  apply Fin.ext
  match a with
  | ⟨0, _⟩ => show win0_5.index t (0 : Fin 2) * 128 + 1 * k.val = k.val; rw [hi.1]; omega
  | ⟨1, _⟩ => show win0_5.index t (1 : Fin 2) * 128 + 1 * h.val = h.val; rw [hi.2]; omega

/-- Window 6 of region 0 holds the whole weight matrix at every point. -/
theorem weights0_6 (c : Dev nD) (t : Fin cfg0.N) (k : Fin 128) (h : Fin 128) :
    (iblk0 V c 6 t : Vec Ideal S128x128 .bf16) (ix2 k h) = (V c main_v79 : S128x128.Idx → EReal) (ix2 k h) := by
  have hi : win0_6.index t (0 : Fin 2) = 0 ∧ win0_6.index t (1 : Fin 2) = 0 :=
    (by decide +kernel : ∀ t : Fin grid0.N, win0_6.index t (0 : Fin 2) = 0 ∧ win0_6.index t (1 : Fin 2) = 0) t
  unfold iblk0
  rw [View.read_apply]
  show V c main_v79 _ = V c main_v79 _
  congr 1
  funext a
  apply Fin.ext
  match a with
  | ⟨0, _⟩ => show win0_6.index t (0 : Fin 2) * 128 + 1 * k.val = k.val; rw [hi.1]; omega
  | ⟨1, _⟩ => show win0_6.index t (1 : Fin 2) * 128 + 1 * h.val = h.val; rw [hi.2]; omega

/-- Window 8 of region 0 holds the whole weight matrix at every point. -/
theorem weights0_8 (c : Dev nD) (t : Fin cfg0.N) (k : Fin 128) (h : Fin 128) :
    (iblk0 V c 8 t : Vec Ideal S128x128 .bf16) (ix2 k h) = (V c main_v81 : S128x128.Idx → EReal) (ix2 k h) := by
  have hi : win0_8.index t (0 : Fin 2) = 0 ∧ win0_8.index t (1 : Fin 2) = 0 :=
    (by decide +kernel : ∀ t : Fin grid0.N, win0_8.index t (0 : Fin 2) = 0 ∧ win0_8.index t (1 : Fin 2) = 0) t
  unfold iblk0
  rw [View.read_apply]
  show V c main_v81 _ = V c main_v81 _
  congr 1
  funext a
  apply Fin.ext
  match a with
  | ⟨0, _⟩ => show win0_8.index t (0 : Fin 2) * 128 + 1 * k.val = k.val; rw [hi.1]; omega
  | ⟨1, _⟩ => show win0_8.index t (1 : Fin 2) * 128 + 1 * h.val = h.val; rw [hi.2]; omega

/-- Window 4 of region 0 holds the whole bias vector at every point. -/
theorem bias0_4 (c : Dev nD) (t : Fin cfg0.N) (h : Fin 128) :
    (iblk0 V c 4 t : Vec Ideal S128 .f32) (ix1 h) = (V c main_arg6 : S128.Idx → EReal) (ix1 h) := by
  have hi : win0_4.index t (0 : Fin 1) = 0 :=
    (by decide +kernel : ∀ t : Fin grid0.N, win0_4.index t (0 : Fin 1) = 0) t
  unfold iblk0
  rw [View.read_apply]
  show V c main_arg6 _ = V c main_arg6 _
  congr 1
  funext a
  apply Fin.ext
  match a with
  | ⟨0, _⟩ => show win0_4.index t (0 : Fin 1) * 128 + 1 * h.val = h.val; rw [hi]; omega

/-- Window 7 of region 0 holds the whole bias vector at every point. -/
theorem bias0_7 (c : Dev nD) (t : Fin cfg0.N) (h : Fin 128) :
    (iblk0 V c 7 t : Vec Ideal S128 .f32) (ix1 h) = (V c main_arg12 : S128.Idx → EReal) (ix1 h) := by
  have hi : win0_7.index t (0 : Fin 1) = 0 :=
    (by decide +kernel : ∀ t : Fin grid0.N, win0_7.index t (0 : Fin 1) = 0) t
  unfold iblk0
  rw [View.read_apply]
  show V c main_arg12 _ = V c main_arg12 _
  congr 1
  funext a
  apply Fin.ext
  match a with
  | ⟨0, _⟩ => show win0_7.index t (0 : Fin 1) * 128 + 1 * h.val = h.val; rw [hi]; omega

/-- Block rows of window 0 against the weights of window 3: the whole arrays' product at the node the row is. -/
theorem prod0_0_3 (c : Dev nD) (t : Fin cfg0.N) (r : Fin 10000) (h : Fin 128) :
    Payload.rowDot (iblk0 V c 0 t : Vec Ideal S10000x128 .bf16) (iblk0 V c 3 t : Vec Ideal S128x128 .bf16) r h
      = Sage.rowsTimes (V c main_v69) (V c main_v75) (node t.val r (Nat.lt_of_lt_of_eq t.isLt (show cfg0.N = 10 from N_0))) h := by
  unfold Payload.rowDot Sage.rowsTimes
  refine Finset.sum_congr rfl fun k _ => ?_
  rw [rows0_0 V c t r k, weights0_3 V c t k h]

/-- Block rows of window 2 against the weights of window 5: the whole arrays' product at the node the row is. -/
theorem prod0_2_5 (c : Dev nD) (t : Fin cfg0.N) (r : Fin 10000) (h : Fin 128) :
    Payload.rowDot (iblk0 V c 2 t : Vec Ideal S10000x128 .bf16) (iblk0 V c 5 t : Vec Ideal S128x128 .bf16) r h
      = Sage.rowsTimes (V c main_v72) (V c main_v77) (node t.val r (Nat.lt_of_lt_of_eq t.isLt (show cfg0.N = 10 from N_0))) h := by
  unfold Payload.rowDot Sage.rowsTimes
  refine Finset.sum_congr rfl fun k _ => ?_
  rw [rows0_2 V c t r k, weights0_5 V c t k h]

/-- Block rows of window 1 against the weights of window 6: the whole arrays' product at the node the row is. -/
theorem prod0_1_6 (c : Dev nD) (t : Fin cfg0.N) (r : Fin 10000) (h : Fin 128) :
    Payload.rowDot (iblk0 V c 1 t : Vec Ideal S10000x128 .bf16) (iblk0 V c 6 t : Vec Ideal S128x128 .bf16) r h
      = Sage.rowsTimes (V c main_v70) (V c main_v79) (node t.val r (Nat.lt_of_lt_of_eq t.isLt (show cfg0.N = 10 from N_0))) h := by
  unfold Payload.rowDot Sage.rowsTimes
  refine Finset.sum_congr rfl fun k _ => ?_
  rw [rows0_1 V c t r k, weights0_6 V c t k h]

/-- Block rows of window 2 against the weights of window 8: the whole arrays' product at the node the row is. -/
theorem prod0_2_8 (c : Dev nD) (t : Fin cfg0.N) (r : Fin 10000) (h : Fin 128) :
    Payload.rowDot (iblk0 V c 2 t : Vec Ideal S10000x128 .bf16) (iblk0 V c 8 t : Vec Ideal S128x128 .bf16) r h
      = Sage.rowsTimes (V c main_v72) (V c main_v81) (node t.val r (Nat.lt_of_lt_of_eq t.isLt (show cfg0.N = 10 from N_0))) h := by
  unfold Payload.rowDot Sage.rowsTimes
  refine Finset.sum_congr rfl fun k _ => ?_
  rw [rows0_2 V c t r k, weights0_8 V c t k h]

/-- The service output as one function of the arrays region 0 is entered with: the kernel's running sum at each node and
    output feature. -/
def service (c : Dev nD) : S100000x128.Idx → EReal := fun i =>
  Sage.serviceK (V c main_v69) (V c main_v70) (V c main_v72) (V c main_v75) (V c main_v77) (V c main_v79) (V c main_v81)
    (V c main_arg6) (V c main_arg12) (i 0) (i 1)

/-- WHAT POINT `t` OF REGION 0 WRITES BACK is block `t` of `service`. -/
theorem flushed0_eq (c : Dev nD) (t : Fin cfg0.N) :
    (dat0 V c).flushed 9 t = ((cfg0.win 9).blk t).view.read (Elt Ideal) (service V c) := by
  have hi : win0_9.index t (0 : Fin 2) = t.val ∧ win0_9.index t (1 : Fin 2) = 0 :=
    (by decide +kernel : ∀ t : Fin grid0.N, win0_9.index t (0 : Fin 2) = t.val ∧ win0_9.index t (1 : Fin 2) = 0) t
  have ht : t.val < 10 := Nat.lt_of_lt_of_eq t.isLt (show cfg0.N = 10 from N_0)
  show (cfg0.win 9).cut (grid0.coords t) ((dat0 V c).after 9 t) = _
  rw [after0_9]
  unfold out0_9
  rw [View.canon_unit_zero hz2]
  simp only [View.ld_unit_zero (S := S10000x128) hz2, View.ld_unit_zero (S := S128x128) hz2, View.ld_unit_zero (S := S128) hz1]
  funext j
  obtain ⟨r, h, rfl⟩ : ∃ (r : Fin 10000) (h : Fin 128), j = ix2 r h := ⟨j 0, j 1, eq_ix2 j⟩
  refine (Payload.pay0_at (iblk0 V c 0 t) (iblk0 V c 1 t) (iblk0 V c 2 t) (iblk0 V c 3 t) (iblk0 V c 5 t) (iblk0 V c 4 t)
    (iblk0 V c 6 t) (iblk0 V c 8 t) (iblk0 V c 7 t) r h).trans ?_
  rw [prod0_0_3 V c t r h, prod0_2_5 V c t r h, prod0_1_6 V c t r h, prod0_2_8 V c t r h, bias0_4 V c t h, bias0_7 V c t h]
  show _ = service V c (((cfg0.win 9).blk t).view.emb (ix2 r h))
  have he : ((cfg0.win 9).blk t).view.emb (ix2 r h) = ix2 (node t.val r ht) h := by
    funext a
    apply Fin.ext
    match a with
    | ⟨0, _⟩ => show win0_9.index t (0 : Fin 2) * 10000 + 1 * r.val = t.val * 10000 + r.val; rw [hi.1]; omega
    | ⟨1, _⟩ => show win0_9.index t (1 : Fin 2) * 128 + 1 * h.val = h.val; rw [hi.2]; omega
  rw [he]
  rfl

/-- An index of the result array is in point `t`'s block exactly when each coordinate is in the block's range. -/
theorem mem_blk0 (t : Fin cfg0.N) (i : S100000x128.Idx) :
    i ∈ ((cfg0.win 9).blk t).view.set ↔ ∀ a : Fin 2, win0_9.index t a * S10000x128.size a ≤ (i a).val ∧ (i a).val < win0_9.index t a * S10000x128.size a + S10000x128.size a := by
  show i ∈ ((View.whole main_v86).slice (win0_9.rect t)).set ↔ _
  rw [View.set_slice_whole, Rect.mem_set_unit]
  exact Iff.rfl

/-- The ten blocks of 10000 rows tile the 100000 rows: row `n` is in block `n / 10000`. -/
theorem cover0 (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  have hidx : win0_9.index t (0 : Fin 2) = t.val ∧ win0_9.index t (1 : Fin 2) = 0 :=
    (by decide +kernel : ∀ t : Fin grid0.N, win0_9.index t (0 : Fin 2) = t.val ∧ win0_9.index t (1 : Fin 2) = 0) t
  refine ⟨t, flush0_9 t, ?_⟩
  rw [mem_blk0]
  intro a
  match a with
  | ⟨0, _⟩ =>
    show win0_9.index t (0 : Fin 2) * 10000 ≤ (i 0).val ∧ (i 0).val < win0_9.index t (0 : Fin 2) * 10000 + 10000
    rw [hidx.1]
    show (i 0).val / 10000 * 10000 ≤ (i 0).val ∧ (i 0).val < (i 0).val / 10000 * 10000 + 10000
    omega
  | ⟨1, _⟩ =>
    show win0_9.index t (1 : Fin 2) * 128 ≤ (i 1).val ∧ (i 1).val < win0_9.index t (1 : Fin 2) * 128 + 128
    rw [hidx.2]
    omega

/-- THE SERVICE OUTPUT after region 0 is `service` of the arrays the region was entered with. -/
theorem final0 (c : Dev nD) : (dat0 V c).arrAt 9 cfg0.N = service V c :=
  (dat0 V c).arrAt_eq_of_cover 9 (service V c) (fun t _ => flushed0_eq V c t) cover0

/-! ## Region 1: the endpoint output -/

/-- Window 0 of region 1 at point `t` holds rows `10000 t … 10000 t + 9999` of its array. -/
theorem rows1_0 (c : Dev nD) (t : Fin cfg1.N) (r : Fin 10000) (k : Fin 128) :
    (iblk1 V c 0 t : Vec Ideal S10000x128 .bf16) (ix2 r k)
      = (V c main_v71 : S100000x128.Idx → EReal) (ix2 (node t.val r (Nat.lt_of_lt_of_eq t.isLt (show cfg1.N = 10 from N_1))) k) := by
  have hi : win1_0.index t (0 : Fin 2) = t.val ∧ win1_0.index t (1 : Fin 2) = 0 :=
    (by decide +kernel : ∀ t : Fin grid1.N, win1_0.index t (0 : Fin 2) = t.val ∧ win1_0.index t (1 : Fin 2) = 0) t
  unfold iblk1
  rw [View.read_apply]
  show V c main_v71 _ = V c main_v71 _
  congr 1
  funext a
  apply Fin.ext
  match a with
  | ⟨0, _⟩ => show win1_0.index t (0 : Fin 2) * 10000 + 1 * r.val = t.val * 10000 + r.val; rw [hi.1]; omega
  | ⟨1, _⟩ => show win1_0.index t (1 : Fin 2) * 128 + 1 * k.val = k.val; rw [hi.2]; omega

/-- Window 1 of region 1 at point `t` holds rows `10000 t … 10000 t + 9999` of its array. -/
theorem rows1_1 (c : Dev nD) (t : Fin cfg1.N) (r : Fin 10000) (k : Fin 128) :
    (iblk1 V c 1 t : Vec Ideal S10000x128 .bf16) (ix2 r k)
      = (V c main_v73 : S100000x128.Idx → EReal) (ix2 (node t.val r (Nat.lt_of_lt_of_eq t.isLt (show cfg1.N = 10 from N_1))) k) := by
  have hi : win1_1.index t (0 : Fin 2) = t.val ∧ win1_1.index t (1 : Fin 2) = 0 :=
    (by decide +kernel : ∀ t : Fin grid1.N, win1_1.index t (0 : Fin 2) = t.val ∧ win1_1.index t (1 : Fin 2) = 0) t
  unfold iblk1
  rw [View.read_apply]
  show V c main_v73 _ = V c main_v73 _
  congr 1
  funext a
  apply Fin.ext
  match a with
  | ⟨0, _⟩ => show win1_1.index t (0 : Fin 2) * 10000 + 1 * r.val = t.val * 10000 + r.val; rw [hi.1]; omega
  | ⟨1, _⟩ => show win1_1.index t (1 : Fin 2) * 128 + 1 * k.val = k.val; rw [hi.2]; omega

/-- Window 2 of region 1 holds the whole weight matrix at every point. -/
theorem weights1_2 (c : Dev nD) (t : Fin cfg1.N) (k : Fin 128) (h : Fin 128) :
    (iblk1 V c 2 t : Vec Ideal S128x128 .bf16) (ix2 k h) = (V c main_v83 : S128x128.Idx → EReal) (ix2 k h) := by
  have hi : win1_2.index t (0 : Fin 2) = 0 ∧ win1_2.index t (1 : Fin 2) = 0 :=
    (by decide +kernel : ∀ t : Fin grid1.N, win1_2.index t (0 : Fin 2) = 0 ∧ win1_2.index t (1 : Fin 2) = 0) t
  unfold iblk1
  rw [View.read_apply]
  show V c main_v83 _ = V c main_v83 _
  congr 1
  funext a
  apply Fin.ext
  match a with
  | ⟨0, _⟩ => show win1_2.index t (0 : Fin 2) * 128 + 1 * k.val = k.val; rw [hi.1]; omega
  | ⟨1, _⟩ => show win1_2.index t (1 : Fin 2) * 128 + 1 * h.val = h.val; rw [hi.2]; omega

/-- Window 4 of region 1 holds the whole weight matrix at every point. -/
theorem weights1_4 (c : Dev nD) (t : Fin cfg1.N) (k : Fin 128) (h : Fin 128) :
    (iblk1 V c 4 t : Vec Ideal S128x128 .bf16) (ix2 k h) = (V c main_v85 : S128x128.Idx → EReal) (ix2 k h) := by
  have hi : win1_4.index t (0 : Fin 2) = 0 ∧ win1_4.index t (1 : Fin 2) = 0 :=
    (by decide +kernel : ∀ t : Fin grid1.N, win1_4.index t (0 : Fin 2) = 0 ∧ win1_4.index t (1 : Fin 2) = 0) t
  unfold iblk1
  rw [View.read_apply]
  show V c main_v85 _ = V c main_v85 _
  congr 1
  funext a
  apply Fin.ext
  match a with
  | ⟨0, _⟩ => show win1_4.index t (0 : Fin 2) * 128 + 1 * k.val = k.val; rw [hi.1]; omega
  | ⟨1, _⟩ => show win1_4.index t (1 : Fin 2) * 128 + 1 * h.val = h.val; rw [hi.2]; omega

/-- Window 3 of region 1 holds the whole bias vector at every point. -/
theorem bias1_3 (c : Dev nD) (t : Fin cfg1.N) (h : Fin 128) :
    (iblk1 V c 3 t : Vec Ideal S128 .f32) (ix1 h) = (V c main_arg9 : S128.Idx → EReal) (ix1 h) := by
  have hi : win1_3.index t (0 : Fin 1) = 0 :=
    (by decide +kernel : ∀ t : Fin grid1.N, win1_3.index t (0 : Fin 1) = 0) t
  unfold iblk1
  rw [View.read_apply]
  show V c main_arg9 _ = V c main_arg9 _
  congr 1
  funext a
  apply Fin.ext
  match a with
  | ⟨0, _⟩ => show win1_3.index t (0 : Fin 1) * 128 + 1 * h.val = h.val; rw [hi]; omega

/-- Block rows of window 0 against the weights of window 2: the whole arrays' product at the node the row is. -/
theorem prod1_0_2 (c : Dev nD) (t : Fin cfg1.N) (r : Fin 10000) (h : Fin 128) :
    Payload.rowDot (iblk1 V c 0 t : Vec Ideal S10000x128 .bf16) (iblk1 V c 2 t : Vec Ideal S128x128 .bf16) r h
      = Sage.rowsTimes (V c main_v71) (V c main_v83) (node t.val r (Nat.lt_of_lt_of_eq t.isLt (show cfg1.N = 10 from N_1))) h := by
  unfold Payload.rowDot Sage.rowsTimes
  refine Finset.sum_congr rfl fun k _ => ?_
  rw [rows1_0 V c t r k, weights1_2 V c t k h]

/-- Block rows of window 1 against the weights of window 4: the whole arrays' product at the node the row is. -/
theorem prod1_1_4 (c : Dev nD) (t : Fin cfg1.N) (r : Fin 10000) (h : Fin 128) :
    Payload.rowDot (iblk1 V c 1 t : Vec Ideal S10000x128 .bf16) (iblk1 V c 4 t : Vec Ideal S128x128 .bf16) r h
      = Sage.rowsTimes (V c main_v73) (V c main_v85) (node t.val r (Nat.lt_of_lt_of_eq t.isLt (show cfg1.N = 10 from N_1))) h := by
  unfold Payload.rowDot Sage.rowsTimes
  refine Finset.sum_congr rfl fun k _ => ?_
  rw [rows1_1 V c t r k, weights1_4 V c t k h]

/-- The endpoint output as one function of the arrays region 1 is entered with: one SAGE term in the kernel's order. -/
def endpoint (c : Dev nD) : S100000x128.Idx → EReal := fun i =>
  Sage.termK (V c main_v71) (V c main_v73) (V c main_v83) (V c main_v85) (V c main_arg9) (i 0) (i 1)

/-- WHAT POINT `t` OF REGION 1 WRITES BACK is block `t` of `endpoint`. -/
theorem flushed1_eq (c : Dev nD) (t : Fin cfg1.N) :
    (dat1 V c).flushed 5 t = ((cfg1.win 5).blk t).view.read (Elt Ideal) (endpoint V c) := by
  have hi : win1_5.index t (0 : Fin 2) = t.val ∧ win1_5.index t (1 : Fin 2) = 0 :=
    (by decide +kernel : ∀ t : Fin grid1.N, win1_5.index t (0 : Fin 2) = t.val ∧ win1_5.index t (1 : Fin 2) = 0) t
  have ht : t.val < 10 := Nat.lt_of_lt_of_eq t.isLt (show cfg1.N = 10 from N_1)
  show (cfg1.win 5).cut (grid1.coords t) ((dat1 V c).after 5 t) = _
  rw [after1_5]
  unfold out1_5
  rw [View.canon_unit_zero hz2]
  simp only [View.ld_unit_zero (S := S10000x128) hz2, View.ld_unit_zero (S := S128x128) hz2, View.ld_unit_zero (S := S128) hz1]
  funext j
  obtain ⟨r, h, rfl⟩ : ∃ (r : Fin 10000) (h : Fin 128), j = ix2 r h := ⟨j 0, j 1, eq_ix2 j⟩
  refine (Payload.pay1_at (iblk1 V c 0 t) (iblk1 V c 1 t) (iblk1 V c 2 t) (iblk1 V c 4 t) (iblk1 V c 3 t) r h).trans ?_
  rw [prod1_0_2 V c t r h, prod1_1_4 V c t r h, bias1_3 V c t h]
  show _ = endpoint V c (((cfg1.win 5).blk t).view.emb (ix2 r h))
  have he : ((cfg1.win 5).blk t).view.emb (ix2 r h) = ix2 (node t.val r ht) h := by
    funext a
    apply Fin.ext
    match a with
    | ⟨0, _⟩ => show win1_5.index t (0 : Fin 2) * 10000 + 1 * r.val = t.val * 10000 + r.val; rw [hi.1]; omega
    | ⟨1, _⟩ => show win1_5.index t (1 : Fin 2) * 128 + 1 * h.val = h.val; rw [hi.2]; omega
  rw [he]
  rfl

/-- An index of the result array is in point `t`'s block exactly when each coordinate is in the block's range. -/
theorem mem_blk1 (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v87).slice (win1_5.rect t)).set ↔ _
  rw [View.set_slice_whole, Rect.mem_set_unit]
  exact Iff.rfl

/-- The ten blocks of 10000 rows tile the 100000 rows: row `n` is in block `n / 10000`. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  have hidx : win1_5.index t (0 : Fin 2) = t.val ∧ win1_5.index t (1 : Fin 2) = 0 :=
    (by decide +kernel : ∀ t : Fin grid1.N, win1_5.index t (0 : Fin 2) = t.val ∧ win1_5.index t (1 : Fin 2) = 0) t
  refine ⟨t, flush1_5 t, ?_⟩
  rw [mem_blk1]
  intro a
  match a with
  | ⟨0, _⟩ =>
    show win1_5.index t (0 : Fin 2) * 10000 ≤ (i 0).val ∧ (i 0).val < win1_5.index t (0 : Fin 2) * 10000 + 10000
    rw [hidx.1]
    show (i 0).val / 10000 * 10000 ≤ (i 0).val ∧ (i 0).val < (i 0).val / 10000 * 10000 + 10000
    omega
  | ⟨1, _⟩ =>
    show win1_5.index t (1 : Fin 2) * 128 ≤ (i 1).val ∧ (i 1).val < win1_5.index t (1 : Fin 2) * 128 + 128
    rw [hidx.2]
    omega

/-- THE ENDPOINT OUTPUT after region 1 is `endpoint` of the arrays the region was entered with. -/
theorem final1 (c : Dev nD) : (dat1 V c).arrAt 5 cfg1.N = endpoint V c :=
  (dat1 V c).arrAt_eq_of_cover 5 (endpoint V c) (fun t _ => flushed1_eq V c t) cover1

end AtEntry

/-! ## The last boundary's contents at the two results -/

variable (m : (ℓ : Loc nD τ sig) → Buf (Elt Ideal) ℓ) (ρ : Dev nD → PrngReg)

/-- The service output is region 0's and region 1 does not touch it. -/
theorem W3_v86 (c : Dev nD) : W3 m ρ c (Proc.devRef .tc main_v86) = service (V1 m ρ) c :=
  (W3_of_ne m ρ c main_v86 (by decide)).trans ((W2_arr m ρ c 9).trans (final0 (V1 m ρ) c))

/-- The endpoint output is region 1's. -/
theorem W3_v87 (c : Dev nD) : W3 m ρ c (Proc.devRef .tc main_v87) = endpoint (V2 m ρ) c :=
  (W3_arr m ρ c 5).trans (final1 (V2 m ρ) c)

end Cert.KernelIdeal.Blocks

end
-- ==== Proof.RefValue.lean ====
/-
  The reference's two results, read at a node and an output feature.

  Each edge type's contribution is  (mean · Wlᵀ + b) + x · Wrᵀ  with both products the host's contraction over the 128 input
  features, the weights transposed by the program itself and the bias broadcast along the nodes; at the exact instance each
  product is the plain sum over the contracted feature.  The service output is the sum of the two edge types that end at a
  service node; the endpoint output is the one edge type that ends at an endpoint.
-/
import proofs.«172808_j74766790689426_1_alg».proof.Proof.Gen.ReferenceIdeal.Read
import proofs.«172808_j74766790689426_1_alg».proof.Proof.Spec

set_option maxRecDepth 16384

noncomputable section

namespace Cert.ReferenceIdeal.AtIndex

open Cert.ReferenceIdeal Cert.ReferenceIdeal.Read
open Idealize.ShloMosaic Idealize.ShloMosaic.ValueIdx

/-- The edge type from service nodes to service nodes, at node \`n\` and output feature \`h\`. -/
theorem term_calls (x0 : (⟨S100000x128, .f32⟩ : BufTy).Contents (Elt Ideal)) (e2 : (⟨S2x300000, .i32⟩ : BufTy).Contents (Elt Ideal)) (w5 : (⟨S128x128, .f32⟩ : BufTy).Contents (Elt Ideal)) (b6 : (⟨S128, .f32⟩ : BufTy).Contents (Elt Ideal)) (w7 : (⟨S128x128, .f32⟩ : BufTy).Contents (Elt Ideal)) (n : Fin 100000) (h : Fin 128) :
    val_main_v29 (F := Ideal) x0 e2 w5 b6 w7 (ix2 n h)
      = Sage.term (val_main_v21 (F := Ideal) x0 e2) x0 (val_main_v22 (F := Ideal) w5) (val_main_v27 (F := Ideal) w7) b6 n h := by
  rw [val_main_v29_apply, val_main_v26_apply, val_main_v23_apply, val_main_v25_apply, val_main_v24_apply, val_main_v28_apply]
  have q1 : ∀ k : Fin 128, lidx_main_v23 (ix2 n h) k = ix2 n k := fun k => funext fun a => Fin.ext (by
    match a with
    | ⟨0, _⟩ => rfl
    | ⟨1, _⟩ => rfl)
  have q2 : ∀ k : Fin 128, ridx_main_v23 (ix2 n h) k = ix2 k h := fun k => funext fun a => Fin.ext (by
    match a with
    | ⟨0, _⟩ => rfl
    | ⟨1, _⟩ => rfl)
  have q3 : ∀ k : Fin 128, lidx_main_v28 (ix2 n h) k = ix2 n k := fun k => funext fun a => Fin.ext (by
    match a with
    | ⟨0, _⟩ => rfl
    | ⟨1, _⟩ => rfl)
  have q4 : ∀ k : Fin 128, ridx_main_v28 (ix2 n h) k = ix2 k h := fun k => funext fun a => Fin.ext (by
    match a with
    | ⟨0, _⟩ => rfl
    | ⟨1, _⟩ => rfl)
  have q5 : idx_main_v24 (idx_main_v25 (ix2 n h)) = ix1 h := funext fun a => Fin.ext (by
    match a with
    | ⟨0, _⟩ => rfl)
  simp only [q1, q2, q3, q4, q5]
  rfl

/-- The edge type from endpoints to service nodes: the mean is over endpoint features, the root term over service features. -/
theorem term_belongs (x0 : (⟨S100000x128, .f32⟩ : BufTy).Contents (Elt Ideal)) (x1 : (⟨S100000x128, .f32⟩ : BufTy).Contents (Elt Ideal)) (e4 : (⟨S2x300000, .i32⟩ : BufTy).Contents (Elt Ideal)) (w11 : (⟨S128x128, .f32⟩ : BufTy).Contents (Elt Ideal)) (b12 : (⟨S128, .f32⟩ : BufTy).Contents (Elt Ideal)) (w13 : (⟨S128x128, .f32⟩ : BufTy).Contents (Elt Ideal)) (n : Fin 100000) (h : Fin 128) :
    val_main_v59 (F := Ideal) x0 x1 e4 w11 b12 w13 (ix2 n h)
      = Sage.term (val_main_v51 (F := Ideal) x1 e4) x0 (val_main_v52 (F := Ideal) w11) (val_main_v57 (F := Ideal) w13) b12 n h := by
  rw [val_main_v59_apply, val_main_v56_apply, val_main_v53_apply, val_main_v55_apply, val_main_v54_apply, val_main_v58_apply]
  have q1 : ∀ k : Fin 128, lidx_main_v53 (ix2 n h) k = ix2 n k := fun k => funext fun a => Fin.ext (by
    match a with
    | ⟨0, _⟩ => rfl
    | ⟨1, _⟩ => rfl)
  have q2 : ∀ k : Fin 128, ridx_main_v53 (ix2 n h) k = ix2 k h := fun k => funext fun a => Fin.ext (by
    match a with
    | ⟨0, _⟩ => rfl
    | ⟨1, _⟩ => rfl)
  have q3 : ∀ k : Fin 128, lidx_main_v58 (ix2 n h) k = ix2 n k := fun k => funext fun a => Fin.ext (by
    match a with
    | ⟨0, _⟩ => rfl
    | ⟨1, _⟩ => rfl)
  have q4 : ∀ k : Fin 128, ridx_main_v58 (ix2 n h) k = ix2 k h := fun k => funext fun a => Fin.ext (by
    match a with
    | ⟨0, _⟩ => rfl
    | ⟨1, _⟩ => rfl)
  have q5 : idx_main_v54 (idx_main_v55 (ix2 n h)) = ix1 h := funext fun a => Fin.ext (by
    match a with
    | ⟨0, _⟩ => rfl)
  simp only [q1, q2, q3, q4, q5]
  rfl

/-- The edge type from service nodes to endpoints: the endpoint output. -/
theorem term_has (x0 : (⟨S100000x128, .f32⟩ : BufTy).Contents (Elt Ideal)) (x1 : (⟨S100000x128, .f32⟩ : BufTy).Contents (Elt Ideal)) (e3 : (⟨S2x300000, .i32⟩ : BufTy).Contents (Elt Ideal)) (w8 : (⟨S128x128, .f32⟩ : BufTy).Contents (Elt Ideal)) (b9 : (⟨S128, .f32⟩ : BufTy).Contents (Elt Ideal)) (w10 : (⟨S128x128, .f32⟩ : BufTy).Contents (Elt Ideal)) (n : Fin 100000) (h : Fin 128) :
    val_main_v89 (F := Ideal) x0 x1 e3 w8 b9 w10 (ix2 n h)
      = Sage.term (val_main_v81 (F := Ideal) x0 e3) x1 (val_main_v82 (F := Ideal) w8) (val_main_v87 (F := Ideal) w10) b9 n h := by
  rw [val_main_v89_apply, val_main_v86_apply, val_main_v83_apply, val_main_v85_apply, val_main_v84_apply, val_main_v88_apply]
  have q1 : ∀ k : Fin 128, lidx_main_v83 (ix2 n h) k = ix2 n k := fun k => funext fun a => Fin.ext (by
    match a with
    | ⟨0, _⟩ => rfl
    | ⟨1, _⟩ => rfl)
  have q2 : ∀ k : Fin 128, ridx_main_v83 (ix2 n h) k = ix2 k h := fun k => funext fun a => Fin.ext (by
    match a with
    | ⟨0, _⟩ => rfl
    | ⟨1, _⟩ => rfl)
  have q3 : ∀ k : Fin 128, lidx_main_v88 (ix2 n h) k = ix2 n k := fun k => funext fun a => Fin.ext (by
    match a with
    | ⟨0, _⟩ => rfl
    | ⟨1, _⟩ => rfl)
  have q4 : ∀ k : Fin 128, ridx_main_v88 (ix2 n h) k = ix2 k h := fun k => funext fun a => Fin.ext (by
    match a with
    | ⟨0, _⟩ => rfl
    | ⟨1, _⟩ => rfl)
  have q5 : idx_main_v84 (idx_main_v85 (ix2 n h)) = ix1 h := funext fun a => Fin.ext (by
    match a with
    | ⟨0, _⟩ => rfl)
  simp only [q1, q2, q3, q4, q5]
  rfl

/-- The service output: the two edge types that end at a service node, added. -/
theorem service_at (x0 : (⟨S100000x128, .f32⟩ : BufTy).Contents (Elt Ideal)) (x1 : (⟨S100000x128, .f32⟩ : BufTy).Contents (Elt Ideal)) (e2 : (⟨S2x300000, .i32⟩ : BufTy).Contents (Elt Ideal)) (e4 : (⟨S2x300000, .i32⟩ : BufTy).Contents (Elt Ideal)) (w5 : (⟨S128x128, .f32⟩ : BufTy).Contents (Elt Ideal)) (b6 : (⟨S128, .f32⟩ : BufTy).Contents (Elt Ideal)) (w7 : (⟨S128x128, .f32⟩ : BufTy).Contents (Elt Ideal)) (w11 : (⟨S128x128, .f32⟩ : BufTy).Contents (Elt Ideal)) (b12 : (⟨S128, .f32⟩ : BufTy).Contents (Elt Ideal)) (w13 : (⟨S128x128, .f32⟩ : BufTy).Contents (Elt Ideal))
    (n : Fin 100000) (h : Fin 128) :
    val_main_v90 (F := Ideal) x0 x1 e2 e4 w5 b6 w7 w11 b12 w13 (ix2 n h)
      = Sage.term (val_main_v21 (F := Ideal) x0 e2) x0 (val_main_v22 (F := Ideal) w5) (val_main_v27 (F := Ideal) w7) b6 n h
        + Sage.term (val_main_v51 (F := Ideal) x1 e4) x0 (val_main_v52 (F := Ideal) w11) (val_main_v57 (F := Ideal) w13) b12 n h := by
  rw [val_main_v90_apply, term_calls, term_belongs]
  rfl

end Cert.ReferenceIdeal.AtIndex

end
-- ==== Proof.ScatterColumn.lean ====
/-
  Counting the edges that end at a node, as a vector and as a one-column matrix.

  The accumulating scatter adds, to each element of its operand, the updates whose result index is that element.  With the
  destination node of edge `j` read from the one-column index array, an update of the VECTOR form (updates indexed by the edge
  alone, no window axis) lands at node `idx[j, 0]`, and an update of the COLUMN form (updates indexed by the edge and a window
  coordinate of extent one) lands at `(idx[j, 0], 0)`: the second axis has start zero and its only window coordinate is zero.
  So edge `j` lands at node `n` in one form exactly when `(j, 0)` lands at `(n, 0)` in the other, the map `j ↦ (j, 0)` is a
  bijection of the update indices, and the two sums have the same terms.
-/
import Idealize.ShloMosaic.PureOps.Ideal
import Idealize.ShloMosaic.Lib.ValueIdx

noncomputable section

namespace Cert.Sage

open Idealize.ShloMosaic Idealize.ShloMosaic.ValueIdx

/-- One value per node. -/
abbrev SNode : Shape := ⟨1, ![100000]⟩
/-- One value per node, as a column. -/
abbrev SNodeCol : Shape := ⟨2, ![100000, 1]⟩
/-- One value per edge. -/
abbrev SEdge : Shape := ⟨1, ![300000]⟩
/-- One value per edge, as a column (also the shape of the destination indices). -/
abbrev SEdgeCol : Shape := ⟨2, ![300000, 1]⟩

variable (wf1 : ScatterDims.WF SNode SEdgeCol SEdge [] [0] [0] 1) (wf2 : ScatterDims.WF SNodeCol SEdgeCol SEdgeCol [1] [0] [0] 1)

/-- The vector form: no window axis, the operand's one axis inserted and addressed by the index vector's one component. -/
abbrev dRow : ScatterDims SNode SEdgeCol SEdge := ⟨[], [0], [0], 1, wf1⟩
/-- The column form: the updates' second axis is a window axis onto the operand's second axis. -/
abbrev dCol : ScatterDims SNodeCol SEdgeCol SEdgeCol := ⟨[1], [0], [0], 1, wf2⟩

/-- In the vector form the start on the node axis is the destination index of the edge, read signed. -/
theorem startRow {w : Nat} (j : SEdge.Idx) (idx : IVec SEdgeCol w) :
    (dRow wf1).start j idx 0 = (idx (ix2 (j 0) (0 : Fin 1))).toInt := by
  unfold ScatterDims.start
  rw [dif_pos (List.mem_singleton.2 rfl)]
  congr 2
  funext b
  unfold ScatterDims.siIdx
  match b with
  | ⟨0, _⟩ =>
    rw [dif_neg (by dsimp only; omega)]
    apply Fin.ext
    rfl
  | ⟨1, _⟩ =>
    rw [dif_pos (by dsimp only)]
    apply Fin.ext
    rfl

/-- The vector form has no window coordinate on the node axis. -/
theorem windowRow (j : SEdge.Idx) : (dRow wf1).window j 0 = 0 := by
  unfold ScatterDims.window
  rw [dif_neg (by dsimp only [ScatterDims.sKept]; decide)]

/-- In the column form the start on the node axis is the same destination index. -/
theorem startCol0 {w : Nat} (j : SEdgeCol.Idx) (idx : IVec SEdgeCol w) :
    (dCol wf2).start j idx 0 = (idx (ix2 (j 0) (0 : Fin 1))).toInt := by
  unfold ScatterDims.start
  rw [dif_pos (List.mem_singleton.2 rfl)]
  congr 2
  funext b
  unfold ScatterDims.siIdx
  match b with
  | ⟨0, _⟩ =>
    rw [dif_neg (by dsimp only; omega)]
    apply Fin.ext
    rfl
  | ⟨1, _⟩ =>
    rw [dif_pos (by dsimp only)]
    apply Fin.ext
    rfl

/-- The column axis is not addressed by the index vector: its start is zero. -/
theorem startCol1 {w : Nat} (j : SEdgeCol.Idx) (idx : IVec SEdgeCol w) :
    (dCol wf2).start j idx 1 = 0 := by
  unfold ScatterDims.start
  rw [dif_neg (by dsimp only; decide)]

/-- The node axis is inserted: no window coordinate there. -/
theorem windowCol0 (j : SEdgeCol.Idx) : (dCol wf2).window j 0 = 0 := by
  unfold ScatterDims.window
  rw [dif_neg (by dsimp only [ScatterDims.sKept]; decide)]

/-- The window coordinate on the column axis is the update's second coordinate, which is zero (extent one). -/
theorem windowCol1 (j : SEdgeCol.Idx) : (dCol wf2).window j 1 = 0 := by
  unfold ScatterDims.window
  rw [dif_pos (by dsimp only [ScatterDims.sKept]; decide)]
  have hj : ∀ a : Fin 2, (a : Nat) = 1 → (j a).val = 0 := fun a e => by
    have : a = 1 := Fin.ext e
    subst this
    have : (j 1).val < 1 := (j 1).isLt
    omega
  exact hj _ rfl

/-- VECTOR FORM: edge `j`'s update lands at node `n` exactly when its destination index is `n`. -/
theorem rowLands {w : Nat} (idx : IVec SEdgeCol w) (j : SEdge.Idx) (n : Fin 100000) :
    (dRow wf1).resultIdx? j idx = some (ix1 n) ↔ (idx (ix2 (j 0) (0 : Fin 1))).toInt = (n.val : Int) := by
  unfold ScatterDims.resultIdx?
  have hs := startRow wf1 j idx
  have hw := windowRow wf1 j
  split
  · rename_i h
    have h0 := h 0
    rw [hs, hw] at h0
    constructor
    · intro e
      have e0 := congrArg (fun f : SNode.Idx => (f 0).val) (Option.some.inj e)
      dsimp only at e0
      rw [hs, hw] at e0
      have e1 : ((idx (ix2 (j 0) (0 : Fin 1))).toInt + ((0 : Nat) : Int)).toNat = n.val := e0
      omega
    · intro e
      congr 1
      funext a
      match a with
      | ⟨0, _⟩ =>
        apply Fin.ext
        show ((dRow wf1).start j idx 0 + ((dRow wf1).window j 0 : Nat)).toNat = n.val
        rw [hs, hw]
        omega
  · rename_i h
    constructor
    · intro e
      cases e
    · intro e
      exfalso
      apply h
      intro a
      match a with
      | ⟨0, _⟩ =>
        show 0 ≤ (dRow wf1).start j idx 0 + ((dRow wf1).window j 0 : Nat) ∧ (dRow wf1).start j idx 0 + ((dRow wf1).window j 0 : Nat) < ((100000 : Nat) : Int)
        rw [hs, hw]
        have := n.isLt
        omega

/-- COLUMN FORM: the update at `(j, ·)` lands at `(n, 0)` exactly when edge `j`'s destination index is `n`. -/
theorem colLands {w : Nat} (idx : IVec SEdgeCol w) (j : SEdgeCol.Idx) (n : Fin 100000) :
    (dCol wf2).resultIdx? j idx = some (ix2 n (0 : Fin 1)) ↔ (idx (ix2 (j 0) (0 : Fin 1))).toInt = (n.val : Int) := by
  unfold ScatterDims.resultIdx?
  have hs0 := startCol0 wf2 j idx
  have hs1 := startCol1 wf2 j idx
  have hw0 := windowCol0 wf2 j
  have hw1 := windowCol1 wf2 j
  split
  · rename_i h
    have h0 := h 0
    rw [hs0, hw0] at h0
    constructor
    · intro e
      have e0 := congrArg (fun f : SNodeCol.Idx => (f 0).val) (Option.some.inj e)
      dsimp only at e0
      rw [hs0, hw0] at e0
      have e1 : ((idx (ix2 (j 0) (0 : Fin 1))).toInt + ((0 : Nat) : Int)).toNat = n.val := e0
      omega
    · intro e
      congr 1
      funext a
      match a with
      | ⟨0, _⟩ =>
        apply Fin.ext
        show ((dCol wf2).start j idx 0 + ((dCol wf2).window j 0 : Nat)).toNat = n.val
        rw [hs0, hw0]
        omega
      | ⟨1, _⟩ =>
        apply Fin.ext
        show ((dCol wf2).start j idx 1 + ((dCol wf2).window j 1 : Nat)).toNat = 0
        rw [hs1, hw1]
        rfl
  · rename_i h
    constructor
    · intro e
      cases e
    · intro e
      exfalso
      apply h
      intro a
      match a with
      | ⟨0, _⟩ =>
        show 0 ≤ (dCol wf2).start j idx 0 + ((dCol wf2).window j 0 : Nat) ∧ (dCol wf2).start j idx 0 + ((dCol wf2).window j 0 : Nat) < ((100000 : Nat) : Int)
        rw [hs0, hw0]
        have := n.isLt
        omega
      | ⟨1, _⟩ =>
        show 0 ≤ (dCol wf2).start j idx 1 + ((dCol wf2).window j 1 : Nat) ∧ (dCol wf2).start j idx 1 + ((dCol wf2).window j 1 : Nat) < ((1 : Nat) : Int)
        rw [hs1, hw1]
        omega

/-- An edge index and the same edge with the column coordinate zero: a bijection of the two families of update indices. -/
def edgeCol : SEdge.Idx ≃ SEdgeCol.Idx where
  toFun j := ix2 (j 0) (0 : Fin 1)
  invFun j := ix1 (j 0)
  left_inv j := (eq_ix1 j).symm
  right_inv j := by
    funext a
    match a with
    | ⟨0, _⟩ => rfl
    | ⟨1, _⟩ =>
      apply Fin.ext
      have : (j 1).val < 1 := (j 1).isLt
      show (0 : Nat) = (j 1).val
      omega

/-- THE TWO FORMS AGREE: accumulating per-edge values onto per-node values by destination index gives, at node `n`, the
    same extended real whether nodes and edges are laid out as vectors or as one-column matrices. -/
theorem scatterAdd_row_eq_col {w : Nat} (x1 : SNode.Idx → EReal) (x2 : SNodeCol.Idx → EReal)
    (u1 : SEdge.Idx → EReal) (u2 : SEdgeCol.Idx → EReal) (idx : IVec SEdgeCol w)
    (hx : ∀ n : Fin 100000, x1 (ix1 n) = x2 (ix2 n (0 : Fin 1)))
    (hu : ∀ j : SEdge.Idx, u1 j = u2 (edgeCol j)) (n : Fin 100000) :
    Ideal.hostScatterAdd (dRow wf1) x1 idx u1 (ix1 n) = Ideal.hostScatterAdd (dCol wf2) x2 idx u2 (ix2 n (0 : Fin 1)) := by
  unfold Ideal.hostScatterAdd
  rw [hx n]
  refine congrArg (x2 (ix2 n (0 : Fin 1)) + ·) ?_
  refine Finset.sum_equiv edgeCol (fun j => ?_) (fun j _ => hu j)
  simp only [Finset.mem_filter, Finset.mem_univ, true_and]
  rw [rowLands wf1 idx j n, colLands wf2 idx (edgeCol j) n]
  rfl

end Cert.Sage

end
-- ==== Proof.Bridge.lean ====
/-
  The kernel program's two results are the reference's two results, as functions of the arguments.

  Three facts join the sides.  (1) The number of edges ending at a node is the same extended real whether the ones are
  accumulated into a vector of nodes or into a one-column matrix of nodes, so the kernel's mean of gathered rows is the
  reference's.  (2) A change of float format is the identity on extended reals, so the arrays the regions are entered with are
  the means, the features and the transposed weights themselves.  (3) The kernel's running sum of four products and two biases
  is the sum of the two edge types' terms, addition of extended reals being commutative and associative; for the endpoint
  output the bias is merely added after the second product instead of before it.
-/
import proofs.«172808_j74766790689426_1_alg».proof.Proof.KernelHost
import proofs.«172808_j74766790689426_1_alg».proof.Proof.KernelValue
import proofs.«172808_j74766790689426_1_alg».proof.Proof.RefValue
import proofs.«172808_j74766790689426_1_alg».proof.Proof.ScatterColumn
import proofs.«172808_j74766790689426_1_alg».proof.Proof.Spec

set_option maxRecDepth 16384

noncomputable section

namespace Cert.Bridge

open Idealize.ShloMosaic Idealize.ShloMosaic.TcCoe Idealize.SL.Sem Idealize.ShloMosaic.ValueIdx

/-! ## The count of edges per node: a vector here, a column there -/

/-- The kernel program's count: a one per edge accumulated by destination into a vector of zeros. -/
def countK (e : IVec Cert.KernelIdeal.S2x300000 32) : FVec Ideal Cert.KernelIdeal.S100000 .f32 :=
  Host.scatterAdd Cert.KernelIdeal.scatter_S100000_S300000x1_S300000_n_0_0_1 (broadcastInDim Cert.KernelIdeal.S100000 ![] Cert.KernelIdeal.Facts₀.bcast_S_S100000 (constant (F := Ideal) Cert.KernelIdeal.S_ .f32 0x00000000#32) : FVec Ideal Cert.KernelIdeal.S100000 .f32) (Cert.ReferenceIdeal.Read.val_main_v16 (F := Ideal) e) (broadcastInDim Cert.KernelIdeal.S300000 ![] Cert.KernelIdeal.Facts₀.bcast_S_S300000 (constant (F := Ideal) Cert.KernelIdeal.S_ .f32 0x3F800000#32) : FVec Ideal Cert.KernelIdeal.S300000 .f32)

/-- It is the vector form of the accumulating scatter. -/
theorem countK_apply (e : IVec Cert.KernelIdeal.S2x300000 32) (n : Fin 100000) :
    countK e (ix1 n) = Ideal.hostScatterAdd (Cert.Sage.dRow Cert.KernelIdeal.Facts₀.scatter_S100000_S300000x1_S300000_n_0_0_1_wf) (broadcastInDim Cert.KernelIdeal.S100000 ![] Cert.KernelIdeal.Facts₀.bcast_S_S100000 (constant (F := Ideal) Cert.KernelIdeal.S_ .f32 0x00000000#32) : FVec Ideal Cert.KernelIdeal.S100000 .f32) (Cert.ReferenceIdeal.Read.val_main_v16 (F := Ideal) e) (broadcastInDim Cert.KernelIdeal.S300000 ![] Cert.KernelIdeal.Facts₀.bcast_S_S300000 (constant (F := Ideal) Cert.KernelIdeal.S_ .f32 0x3F800000#32) : FVec Ideal Cert.KernelIdeal.S300000 .f32) (ix1 n) := rfl

/-- The reference's count is the column form. -/
theorem countR_apply (e : IVec Cert.KernelIdeal.S2x300000 32) (n : Fin 100000) :
    Cert.ReferenceIdeal.Read.val_main_v17 (F := Ideal) e (ix2 n (0 : Fin 1))
      = Ideal.hostScatterAdd (Cert.Sage.dCol Cert.ReferenceIdeal.Facts₀.scatter_S100000x1_S300000x1_S300000x1_1_0_0_1_wf) (Cert.ReferenceIdeal.Read.val_main_v15 (F := Ideal)) (Cert.ReferenceIdeal.Read.val_main_v16 (F := Ideal) e)
          (Cert.ReferenceIdeal.Read.val_main_v14 (F := Ideal)) (ix2 n (0 : Fin 1)) := rfl

/-- THE COUNT agrees: the two forms of the accumulating scatter, of zeros and ones laid out either way. -/
theorem count_eq (e : IVec Cert.KernelIdeal.S2x300000 32) (n : Fin 100000) :
    countK e (ix1 n) = Cert.ReferenceIdeal.Read.val_main_v17 (F := Ideal) e (ix2 n (0 : Fin 1)) :=
  (countK_apply e n).trans
    ((Cert.Sage.scatterAdd_row_eq_col Cert.KernelIdeal.Facts₀.scatter_S100000_S300000x1_S300000_n_0_0_1_wf Cert.ReferenceIdeal.Facts₀.scatter_S100000x1_S300000x1_S300000x1_1_0_0_1_wf (broadcastInDim Cert.KernelIdeal.S100000 ![] Cert.KernelIdeal.Facts₀.bcast_S_S100000 (constant (F := Ideal) Cert.KernelIdeal.S_ .f32 0x00000000#32) : FVec Ideal Cert.KernelIdeal.S100000 .f32) (Cert.ReferenceIdeal.Read.val_main_v15 (F := Ideal)) (broadcastInDim Cert.KernelIdeal.S300000 ![] Cert.KernelIdeal.Facts₀.bcast_S_S300000 (constant (F := Ideal) Cert.KernelIdeal.S_ .f32 0x3F800000#32) : FVec Ideal Cert.KernelIdeal.S300000 .f32)
        (Cert.ReferenceIdeal.Read.val_main_v14 (F := Ideal)) (Cert.ReferenceIdeal.Read.val_main_v16 (F := Ideal) e) (fun _ => rfl) (fun _ => rfl) n).trans
      (countR_apply e n).symm)

/-- THE DEGREE, the count clamped below by one, agrees. -/
theorem degree_eq (e : IVec Cert.KernelIdeal.S2x300000 32) (n : Fin 100000) :
    Cert.KernelIdeal.Host.degree (F := Ideal) e (ix1 n) = Cert.ReferenceIdeal.Read.val_main_v19 (F := Ideal) e (ix2 n (0 : Fin 1)) := by
  show FloatOps.maximumf (countK e (ix1 n)) ((broadcastInDim Cert.KernelIdeal.S100000 ![] Cert.KernelIdeal.Facts₀.bcast_S_S100000 (constant (F := Ideal) Cert.KernelIdeal.S_ .f32 0x3F800000#32) : FVec Ideal Cert.KernelIdeal.S100000 .f32) (ix1 n))
    = FloatOps.maximumf (Cert.ReferenceIdeal.Read.val_main_v17 (F := Ideal) e (ix2 n (0 : Fin 1))) (Cert.ReferenceIdeal.Read.val_main_v18 (F := Ideal) (ix2 n (0 : Fin 1)))
  rw [count_eq]
  rfl

/-- The kernel program's divisor: the degree as a column, broadcast along the features. -/
def divisorK (e : IVec Cert.KernelIdeal.S2x300000 32) : FVec Ideal Cert.KernelIdeal.S100000x128 .f32 :=
  broadcastInDim Cert.KernelIdeal.S100000x128 ![0, 1] Cert.KernelIdeal.Facts₀.bcast_S100000x1_S100000x128_0_1
    (broadcastInDim Cert.KernelIdeal.S100000x1 ![0] Cert.KernelIdeal.Facts₀.bcast_S100000_S100000x1_0 (Cert.KernelIdeal.Host.degree (F := Ideal) e))

/-- THE DIVISOR agrees at every node and feature. -/
theorem divisor_eq (e : IVec Cert.KernelIdeal.S2x300000 32) (n : Fin 100000) (h : Fin 128) :
    divisorK e (ix2 n h) = Cert.ReferenceIdeal.Read.val_main_v20 (F := Ideal) e (ix2 n h) := by
  unfold divisorK
  rw [Cert.ReferenceIdeal.Read.val_main_v20_apply]
  rw [broadcastInDim_apply _ Cert.KernelIdeal.Facts₀.bcast_S100000x1_S100000x128_0_1 _ (ix2 n h) (ix2 n (0 : Fin 1)) (fun a => by
    match a with
    | ⟨0, _⟩ => rfl
    | ⟨1, _⟩ => rfl)]
  rw [broadcastInDim_apply _ Cert.KernelIdeal.Facts₀.bcast_S100000_S100000x1_0 _ (ix2 n (0 : Fin 1)) (ix1 n) (fun a => by
    match a with
    | ⟨0, _⟩ => rfl)]
  rw [degree_eq]
  exact congrArg (Cert.ReferenceIdeal.Read.val_main_v19 (F := Ideal) e) (funext fun a => Fin.ext (by
    match a with
    | ⟨0, _⟩ => rfl
    | ⟨1, _⟩ => rfl))

/-- THE MEAN of the gathered rows over the edges ending at each node is the reference's. -/
theorem mean_eq (x : FVec Ideal Cert.KernelIdeal.S100000x128 .f32) (e : IVec Cert.KernelIdeal.S2x300000 32) :
    Cert.KernelIdeal.Host.meanK (F := Ideal) x e = Cert.ReferenceIdeal.Read.val_main_v21 (F := Ideal) x e := by
  funext i
  obtain ⟨n, h, rfl⟩ : ∃ (n : Fin 100000) (h : Fin 128), i = ix2 n h := ⟨i 0, i 1, eq_ix2 i⟩
  rw [Cert.ReferenceIdeal.Read.val_main_v21_apply]
  show FloatOps.hostDivf (Cert.ReferenceIdeal.Read.val_main_v13 (F := Ideal) x e (ix2 n h)) (divisorK e (ix2 n h)) = _
  rw [divisor_eq]

/-- A change of float format is the identity on extended reals. -/
theorem truncf_id {s : Shape} (a : FVec Ideal s .f32) (hb : FTy.bits .bf16 < FTy.bits .f32) :
    (truncf .bf16 a hb : FVec Ideal s .bf16) = a := rfl

variable (m : (ℓ : Loc Cert.KernelIdeal.nD Cert.KernelIdeal.τ Cert.KernelIdeal.sig) → Buf (Elt Ideal) ℓ) (ρ : Dev Cert.KernelIdeal.nD → PrngReg)

/-- THE SERVICE OUTPUT of the kernel program is the reference's, as a function of the arguments. -/
theorem kernel_service (c : Dev Cert.KernelIdeal.nD) :
    Cert.KernelIdeal.Gen.W3 m ρ c (Proc.devRef .tc Cert.KernelIdeal.main_v86)
      = Cert.ReferenceIdeal.Read.val_main_v90 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) := by
  rw [Cert.KernelIdeal.Blocks.W3_v86]
  funext i
  obtain ⟨n, h, rfl⟩ : ∃ (n : Fin 100000) (h : Fin 128), i = ix2 n h := ⟨i 0, i 1, eq_ix2 i⟩
  rw [Cert.ReferenceIdeal.AtIndex.service_at]
  unfold Cert.KernelIdeal.Blocks.service
  rw [Cert.KernelIdeal.Host.V1_v69, Cert.KernelIdeal.Host.V1_v70, Cert.KernelIdeal.Host.V1_v72, Cert.KernelIdeal.Host.V1_v75, Cert.KernelIdeal.Host.V1_v77, Cert.KernelIdeal.Host.V1_v79, Cert.KernelIdeal.Host.V1_v81,
    Cert.KernelIdeal.Host.V1_arg6, Cert.KernelIdeal.Host.V1_arg12]
  rw [Cert.Sage.serviceK_eq]
  simp only [truncf_id]
  rw [mean_eq, mean_eq]
  rfl

/-- THE ENDPOINT OUTPUT of the kernel program is the reference's, as a function of the arguments. -/
theorem kernel_endpoint (c : Dev Cert.KernelIdeal.nD) :
    Cert.KernelIdeal.Gen.W3 m ρ c (Proc.devRef .tc Cert.KernelIdeal.main_v87)
      = Cert.ReferenceIdeal.Read.val_main_v89 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  rw [Cert.KernelIdeal.Blocks.W3_v87]
  funext i
  obtain ⟨n, h, rfl⟩ : ∃ (n : Fin 100000) (h : Fin 128), i = ix2 n h := ⟨i 0, i 1, eq_ix2 i⟩
  rw [Cert.ReferenceIdeal.AtIndex.term_has]
  unfold Cert.KernelIdeal.Blocks.endpoint
  rw [Cert.KernelIdeal.Host.V2_v71, Cert.KernelIdeal.Host.V2_v73, Cert.KernelIdeal.Host.V2_v83, Cert.KernelIdeal.Host.V2_arg9, Cert.KernelIdeal.Host.V2_v85,
    Cert.KernelIdeal.Host.V1_v71, Cert.KernelIdeal.Host.V1_v73, Cert.KernelIdeal.Host.V1_v83, Cert.KernelIdeal.Host.V1_arg9, Cert.KernelIdeal.Host.V1_v85]
  rw [Cert.Sage.termK_eq_term]
  simp only [truncf_id]
  rw [mean_eq]
  rfl

end Cert.Bridge

end
-- ==== Proof.lean ====
/-
  Two SAGE layers over three edge types: the kernel program against the reference, at the exact instance.

  Both programs compute, for each edge type, the mean of the source features over the edges ending at each destination node and
  then  mean · Wlᵀ + b + x · Wrᵀ;  the service output adds the two edge types that end at a service node.  The kernel program
  does the gather, the per-destination sums, the degree and the division on the host, changes every matrix-unit operand to the
  short float format (the identity on extended reals), and evaluates the products, biases and the sum of the two edge types in
  two kernel regions tiled over blocks of 10000 nodes.  The reference does everything on the host.

  The frames of the two kernel programs are the generated ones; the reference's frame is its generated run with the results
  dropped.  The idealization rewrote nothing, so there is nothing to preserve.  For the value claim the kernel program's run is
  taken with its two results named; each result array is shown to hold, index by index, what the reference's stage function of
  the same arguments holds: the degree agrees as a vector and as a column, the blocks the grid points write back tile one
  function of the region's inputs, and the order of the additions does not matter on the extended reals.
-/
import proofs.«172808_j74766790689426_1_alg».proof.Defs
import proofs.«172808_j74766790689426_1_alg».proof.Proof.Gen.Kernel
import proofs.«172808_j74766790689426_1_alg».proof.Proof.Gen.Kernel.Skeleton
import proofs.«172808_j74766790689426_1_alg».proof.Proof.Gen.Kernel.Launch
import proofs.«172808_j74766790689426_1_alg».proof.Proof.Gen.Kernel.Points
import proofs.«172808_j74766790689426_1_alg».proof.Proof.Gen.Kernel.Frame
import proofs.«172808_j74766790689426_1_alg».proof.Proof.Gen.KernelIdeal
import proofs.«172808_j74766790689426_1_alg».proof.Proof.Gen.KernelIdeal.Skeleton
import proofs.«172808_j74766790689426_1_alg».proof.Proof.Gen.KernelIdeal.Launch
import proofs.«172808_j74766790689426_1_alg».proof.Proof.Gen.KernelIdeal.Points
import proofs.«172808_j74766790689426_1_alg».proof.Proof.Gen.KernelIdeal.Frame
import proofs.«172808_j74766790689426_1_alg».proof.Proof.Gen.ReferenceIdeal
import proofs.«172808_j74766790689426_1_alg».proof.Proof.Gen.ReferenceIdeal.Run
import proofs.«172808_j74766790689426_1_alg».proof.Proof.Gen.ReferenceIdeal.Read
import proofs.«172808_j74766790689426_1_alg».proof.Proof.Gen.Pre_finite_inputs
import proofs.«172808_j74766790689426_1_alg».proof.Proof.KernelRun
import proofs.«172808_j74766790689426_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a host program: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the service output and the endpoint output at the
    reference's stage functions of those arguments. -/
theorem algebraic : Cert.algebraic_KernelIdeal_ReferenceIdeal := by
  intro m ρ m' ρ' _ hagree
  refine ⟨fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Bridge.kernel_service m ρ c), (h c).2.1.trans (Cert.Bridge.kernel_endpoint m ρ c), (h c).2.2⟩)
      (Cert.KernelIdeal.Named.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12, a13⟩ := hagree c
      rw [Cert.ReferenceIdeal.Read.val_main_v90_eq, a0, a1, a2, a4, a5, a6, a7, a11, a12, a13]
    · obtain ⟨a0, a1, a2, a3, a4, a5, a6, a7, a8, a9, a10, a11, a12, a13⟩ := hagree c
      rw [a0, a1, a3, a8, a9, a10]
      exact Cert.ReferenceIdeal.Read.val_main_v89_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
